-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2048x2048 : Shape := ⟨2, ![2048, 2048]⟩
abbrev S512x2048 : Shape := ⟨2, ![512, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_arg4 : FVec F S2048x2048 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S2x2048x2048 .f32) (main_arg1 : FVec F S2048x2048 .f32) (main_arg2 : FVec F S512x2048 .f32) (main_arg3 : FVec F S512x2048 .f32) (main_arg4 : FVec F S2048x2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_v13 main_v16
-- ==== Kernel.lean ====
abbrev S2x2048x2048 : Shape := ⟨3, ![2, 2048, 2048]⟩
abbrev S2048x2048 : Shape := ⟨2, ![2048, 2048]⟩
abbrev S512x2048 : Shape := ⟨2, ![512, 2048]⟩
abbrev S4096x2048 : Shape := ⟨2, ![4096, 2048]⟩
abbrev S4096x512 : Shape := ⟨2, ![4096, 512]⟩
abbrev S256x2048 : Shape := ⟨2, ![256, 2048]⟩
abbrev S256x512 : Shape := ⟨2, ![256, 512]⟩
abbrev S256x16x128 : Shape := ⟨3, ![256, 16, 128]⟩
abbrev S256x16 : Shape := ⟨2, ![256, 16]⟩
abbrev S256x16x1 : Shape := ⟨3, ![256, 16, 1]⟩
abbrev S256x4x128 : Shape := ⟨3, ![256, 4, 128]⟩
abbrev S256x4 : Shape := ⟨2, ![256, 4]⟩
abbrev S256x4x1 : Shape := ⟨3, ![256, 4, 1]⟩
abbrev S512x512 : Shape := ⟨2, ![512, 512]⟩
abbrev S2048x128 : Shape := ⟨2, ![2048, 128]⟩
abbrev S512x128 : Shape := ⟨2, ![512, 128]⟩
abbrev S512 : Shape := ⟨1, ![512]⟩
abbrev S512x1 : Shape := ⟨2, ![512, 1]⟩

abbrev nBuf : Space → Nat
  | .hbm => 17
  | .vmem => 28
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S512x2048, .f32⟩
  | .hbm, ⟨3, _⟩ => ⟨S512x2048, .f32⟩
  | .hbm, ⟨4, _⟩ => ⟨S2048x2048, .f32⟩
  | .hbm, ⟨5, _⟩ => ⟨S4096x2048, .f32⟩
  | .hbm, ⟨6, _⟩ => ⟨S2048x2048, .bf16⟩
  | .hbm, ⟨7, _⟩ => ⟨S512x2048, .bf16⟩
  | .hbm, ⟨8, _⟩ => ⟨S512x2048, .bf16⟩
  | .hbm, ⟨9, _⟩ => ⟨S2048x2048, .bf16⟩
  | .hbm, ⟨10, _⟩ => ⟨S4096x2048, .bf16⟩
  | .hbm, ⟨11, _⟩ => ⟨S4096x512, .bf16⟩
  | .hbm, ⟨12, _⟩ => ⟨S4096x512, .bf16⟩
  | .hbm, ⟨13, _⟩ => ⟨S4096x512, .f32⟩
  | .hbm, ⟨14, _⟩ => ⟨S4096x2048, .f32⟩
  | .hbm, ⟨15, _⟩ => ⟨S4096x2048, .f32⟩
  | .hbm, ⟨16, _⟩ => ⟨S2x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S256x2048, .bf16⟩
  | .local _ .vmem, ⟨6, _⟩ => ⟨S256x2048, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .f32⟩
  | .local _ .vmem, ⟨12, _⟩ => ⟨S256x512, .f32⟩
  | .local _ .vmem, ⟨13, _⟩ => ⟨S512x512, .bf16⟩
  | .local _ .vmem, ⟨14, _⟩ => ⟨S512x512, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S512x128, .f32⟩
  | .local _ .vmem, ⟨20, _⟩ => ⟨S512x128, .f32⟩
  | .local _ .vmem, ⟨21, _⟩ => ⟨S512x512, .f32⟩
  | .local _ .vmem, ⟨22, _⟩ => ⟨S512x512, .f32⟩
  | .local _ .vmem, ⟨23, _⟩ => ⟨S512x2048, .f32⟩
  | .local _ .vmem, ⟨24, _⟩ => ⟨S512x2048, .f32⟩
  | .local _ .vmem, ⟨25, _⟩ => ⟨S2048x2048, .bf16⟩
  | .local _ .vmem, ⟨26, _⟩ => ⟨S512x2048, .f32⟩
  | .local _ .vmem, ⟨27, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem2_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![2, 4, 4], ![false, false, false]⟩

@[reducible] def k1_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k1_mult1 (k1_t1 : Fin k1_t1_loop.trips) : BitVec 32 :=
  let c0_i32_7 : BitVec 32 := 0#32
  let c0_i32 : BitVec 32 := 0#32
  let c1_i32 : BitVec 32 := 1#32
  let arg8 : BitVec 32 := Scf.iv c0_i32 c1_i32 k1_t1
  let c1_i32_6 : BitVec 32 := 1#32
  let v7 : BitVec 32 := Scalar.muli arg8 c1_i32_6
  let v8 : BitVec 32 := Scalar.addi c0_i32_7 v7
  let c128_i32 : BitVec 32 := 128#32
  let v9 : BitVec 32 := Scalar.muli v8 c128_i32
  v9
def k1_off1 (k1_t1 : Fin k1_t1_loop.trips) : Fin 2 → Nat :=
  let c0_8 : Index := 0#32
  let c0_i32_7 : BitVec 32 := 0#32
  let c0_i32 : BitVec 32 := 0#32
  let c1_i32 : BitVec 32 := 1#32
  let arg8 : BitVec 32 := Scf.iv c0_i32 c1_i32 k1_t1
  let c1_i32_6 : BitVec 32 := 1#32
  let v7 : BitVec 32 := Scalar.muli arg8 c1_i32_6
  let v8 : BitVec 32 := Scalar.addi c0_i32_7 v7
  let c128_i32 : BitVec 32 := 128#32
  let v9 : BitVec 32 := Scalar.muli v8 c128_i32
  let v10 : BitVec 32 := v9
  let v11 : Index := Scalar.indexCast v10
  ![0, v11.toNat]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S2x2048x2048_S4096x2048 : S2x2048x2048.ShapeCasts S4096x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S256x2048_S256x16x128 : S256x2048.ShapeCasts S256x16x128
  reduces_S256x16x128_S256x16 : S256x16x128.Reduces [2] S256x16
  shapeCasts_S256x16_S256x16x1 : S256x16.ShapeCasts S256x16x1
  broadcasts_S256x16x1_S256x16x128 : S256x16x1.Broadcasts S256x16x128
  shapeCasts_S256x16x128_S256x2048 : S256x16x128.ShapeCasts S256x2048
  packedbf16_S256x2048_S256x2048_0_0 : (Rect.unit (s := S256x2048) ![0, 0] S256x2048.size inb_S256x2048_S256x2048_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S256x512_S256x4x128 : S256x512.ShapeCasts S256x4x128
  reduces_S256x4x128_S256x4 : S256x4x128.Reduces [2] S256x4
  shapeCasts_S256x4_S256x4x1 : S256x4.ShapeCasts S256x4x1
  broadcasts_S256x4x1_S256x4x128 : S256x4x1.Broadcasts S256x4x128
  shapeCasts_S256x4x128_S256x512 : S256x4x128.ShapeCasts S256x512
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x2048_S512 : S512x2048.Reduces [1] S512
  shapeCasts_S512_S512x1 : S512.ShapeCasts S512x1
  broadcasts_S512x1_S512x2048 : S512x1.Broadcasts S512x2048
  reduces_S512x128_S512 : S512x128.Reduces [1] S512
  broadcasts_S512x1_S512x128 : S512x1.Broadcasts S512x128
  shapeCasts_S4096x2048_S2x2048x2048 : S4096x2048.ShapeCasts S2x2048x2048
  dot_S256x2048_S2048x2048_S256x2048_1_1_0_0_n_n_wf : DotDims.WF S256x2048 S2048x2048 S256x2048 [1] [1] [0] [0] [] []
  dot_S256x2048_S512x2048_S256x512_1_1_0_0_n_n_wf : DotDims.WF S256x2048 S512x2048 S256x512 [1] [1] [0] [0] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .bf16 = 32 ∨ (Rect.block (s := S4096x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S4096x512.size a
  hwx0_5 : ∀ i : grid0.Coords, EltTy.bits .bf16 = 32 ∨ (Rect.block (s := S4096x512) S256x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S4096x512.size a
  hwx0_6 : ∀ i : grid0.Coords, EltTy.bits .bf16 = 32 ∨ (Rect.block (s := S4096x512) S256x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S4096x512.size a
  hwx0_7 : ∀ i : grid0.Coords, EltTy.bits .f32 = 32 ∨ (Rect.block (s := S4096x512) S256x512.size (cc0_transform_7 i) (hinb0_7 i)).WholeWords (EltTy.packing .f32)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S512x128.size a ≤ S512x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x2048.size a
  hwx1_0 : ∀ i : grid1.Coords, EltTy.bits .bf16 = 32 ∨ (Rect.block (s := S4096x2048) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x512.size a
  hwx1_1 : ∀ i : grid1.Coords, EltTy.bits .bf16 = 32 ∨ (Rect.block (s := S4096x512) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x512.size a
  hwx1_2 : ∀ i : grid1.Coords, EltTy.bits .bf16 = 32 ∨ (Rect.block (s := S4096x512) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x512.size a
  hwx1_3 : ∀ i : grid1.Coords, EltTy.bits .f32 = 32 ∨ (Rect.block (s := S4096x512) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S4096x2048.size a
  hwx1_4 : ∀ i : grid1.Coords, EltTy.bits .f32 = 32 ∨ (Rect.block (s := S4096x2048) S512x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .f32 = 32 ∨ (Rect.block (s := S4096x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S4096x2048.size a
  hwx2_2 : ∀ i : grid2.Coords, EltTy.bits .f32 = 32 ∨ (Rect.block (s := S4096x2048) S512x2048.size (cc2_transform_2 i) (hinb2_2 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S256x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S256x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_3) S256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v5_0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_3) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S512x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x2048 : Shape := ⟨3, ![2, 2048, 2048]⟩
abbrev S2048x2048 : Shape := ⟨2, ![2048, 2048]⟩
abbrev S512x2048 : Shape := ⟨2, ![512, 2048]⟩
abbrev S2x2048x16x128 : Shape := ⟨4, ![2, 2048, 16, 128]⟩
abbrev S2x16x2048x128 : Shape := ⟨4, ![2, 16, 2048, 128]⟩
abbrev S2x2048x512 : Shape := ⟨3, ![2, 2048, 512]⟩
abbrev S2x2048x4x128 : Shape := ⟨4, ![2, 2048, 4, 128]⟩
abbrev S2x4x2048x128 : Shape := ⟨4, ![2, 4, 2048, 128]⟩
abbrev S_ : Shape := ⟨0, ![]⟩
abbrev S2x16x2048 : Shape := ⟨3, ![2, 16, 2048]⟩
abbrev S2x16x2048x1 : Shape := ⟨4, ![2, 16, 2048, 1]⟩
abbrev S2x4x2048 : Shape := ⟨3, ![2, 4, 2048]⟩
abbrev S2x4x2048x1 : Shape := ⟨4, ![2, 4, 2048, 1]⟩
abbrev S2x4x4x2048x128 : Shape := ⟨5, ![2, 4, 4, 2048, 128]⟩
abbrev S2x16x2048x2048 : Shape := ⟨4, ![2, 16, 2048, 2048]⟩

abbrev nBuf : Space → Nat
  | .hbm => 83
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S512x2048, .f32⟩
  | .hbm, ⟨3, _⟩ => ⟨S512x2048, .f32⟩
  | .hbm, ⟨4, _⟩ => ⟨S2048x2048, .f32⟩
  | .hbm, ⟨5, _⟩ => ⟨S2x2048x2048, .f32⟩
  | .hbm, ⟨6, _⟩ => ⟨S2x2048x16x128, .f32⟩
  | .hbm, ⟨7, _⟩ => ⟨S2x16x2048x128, .f32⟩
  | .hbm, ⟨8, _⟩ => ⟨S2x2048x512, .f32⟩
  | .hbm, ⟨9, _⟩ => ⟨S2x2048x4x128, .f32⟩
  | .hbm, ⟨10, _⟩ => ⟨S2x4x2048x128, .f32⟩
  | .hbm, ⟨11, _⟩ => ⟨S2x2048x512, .f32⟩
  | .hbm, ⟨12, _⟩ => ⟨S2x2048x4x128, .f32⟩
  | .hbm, ⟨13, _⟩ => ⟨S2x4x2048x128, .f32⟩
  | .hbm, ⟨14, _⟩ => ⟨S2x16x2048x128, .f32⟩
  | .hbm, ⟨15, _⟩ => ⟨S_, .f32⟩
  | .hbm, ⟨16, _⟩ => ⟨S2x16x2048, .f32⟩
  | .hbm, ⟨17, _⟩ => ⟨S2x16x2048x1, .f32⟩
  | .hbm, ⟨18, _⟩ => ⟨S_, .f32⟩
  | .hbm, ⟨19, _⟩ => ⟨S2x16x2048x1, .f32⟩
  | .hbm, ⟨20, _⟩ => ⟨S2x16x2048x1, .f32⟩
  | .hbm, ⟨21, _⟩ => ⟨S_, .f32⟩
  | .hbm, ⟨22, _⟩ => ⟨S2x16x2048x1, .f32⟩
  | .hbm, ⟨23, _⟩ => ⟨S2x16x2048x1, .f32⟩
  | .hbm, ⟨24, _⟩ => ⟨S2x16x2048x1, .f32⟩
  | .hbm, ⟨25, _⟩ => ⟨S2x16x2048x128, .f32⟩
  | .hbm, ⟨26, _⟩ => ⟨S2x16x2048x128, .f32⟩
  | .hbm, ⟨27, _⟩ => ⟨S2x4x2048x128, .f32⟩
  | .hbm, ⟨28, _⟩ => ⟨S_, .f32⟩
  | .hbm, ⟨29, _⟩ => ⟨S2x4x2048, .f32⟩
  | .hbm, ⟨30, _⟩ => ⟨S2x4x2048x1, .f32⟩
  | .hbm, ⟨31, _⟩ => ⟨S_, .f32⟩
  | .hbm, ⟨32, _⟩ => ⟨S2x4x2048x1, .f32⟩
  | .hbm, ⟨33, _⟩ => ⟨S2x4x2048x1, .f32⟩
  | .hbm, ⟨34, _⟩ => ⟨S_, .f32⟩
  | .hbm, ⟨35, _⟩ => ⟨S2x4x2048x1, .f32⟩
  | .hbm, ⟨36, _⟩ => ⟨S2x4x2048x1, .f32⟩
  | .hbm, ⟨37, _⟩ => ⟨S2x4x2048x1, .f32⟩
  | .hbm, ⟨38, _⟩ => ⟨S2x4x2048x128, .f32⟩
  | .hbm, ⟨39, _⟩ => ⟨S2x4x2048x128, .f32⟩
  | .hbm, ⟨40, _⟩ => ⟨S2x4x4x2048x128, .f32⟩
  | .hbm, ⟨41, _⟩ => ⟨S2x16x2048x128, .f32⟩
  | .hbm, ⟨42, _⟩ => ⟨S2x4x4x2048x128, .f32⟩
  | .hbm, ⟨43, _⟩ => ⟨S2x16x2048x128, .f32⟩
  | .hbm, ⟨44, _⟩ => ⟨S2x16x2048x2048, .f32⟩
  | .hbm, ⟨45, _⟩ => ⟨S_, .f32⟩
  | .hbm, ⟨46, _⟩ => ⟨S2x16x2048x2048, .f32⟩
  | .hbm, ⟨47, _⟩ => ⟨S2x16x2048x2048, .f32⟩
  | .hbm, ⟨48, _⟩ => ⟨S_, .f32⟩
  | .hbm, ⟨49, _⟩ => ⟨S2x16x2048, .f32⟩
  | .hbm, ⟨50, _⟩ => ⟨S_, .f32⟩
  | .hbm, ⟨51, _⟩ => ⟨S2x16x2048, .f32⟩
  | .hbm, ⟨52, _⟩ => ⟨S2x16x2048, .f32⟩
  | .hbm, ⟨53, _⟩ => ⟨S2x16x2048x1, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S_, .f32⟩
  | .hbm, ⟨58, _⟩ => ⟨S2x16x2048, .f32⟩
  | .hbm, ⟨59, _⟩ => ⟨S2x16x2048x1, .f32⟩
  | .hbm, ⟨60, _⟩ => ⟨S2x16x2048x2048, .f32⟩
  | .hbm, ⟨61, _⟩ => ⟨S2x16x2048x2048, .f32⟩
  | .hbm, ⟨62, _⟩ => ⟨S2x16x2048x128, .f32⟩
  | .hbm, ⟨63, _⟩ => ⟨S2x16x2048x128, .f32⟩
  | .hbm, ⟨64, _⟩ => ⟨S_, .f32⟩
  | .hbm, ⟨65, _⟩ => ⟨S2x16x2048, .f32⟩
  | .hbm, ⟨66, _⟩ => ⟨S2x16x2048x1, .f32⟩
  | .hbm, ⟨67, _⟩ => ⟨S2x16x2048x1, .f32⟩
  | .hbm, ⟨68, _⟩ => ⟨S_, .f32⟩
  | .hbm, ⟨69, _⟩ => ⟨S2x16x2048x1, .f32⟩
  | .hbm, ⟨70, _⟩ => ⟨S2x16x2048x1, .f32⟩
  | .hbm, ⟨71, _⟩ => ⟨S2x16x2048x128, .f32⟩
  | .hbm, ⟨72, _⟩ => ⟨S2x16x2048x128, .f32⟩
  | .hbm, ⟨73, _⟩ => ⟨S2x16x2048x128, .f32⟩
  | .hbm, ⟨74, _⟩ => ⟨S_, .f32⟩
  | .hbm, ⟨75, _⟩ => ⟨S2x16x2048, .f32⟩
  | .hbm, ⟨76, _⟩ => ⟨S2x16x2048x1, .f32⟩
  | .hbm, ⟨77, _⟩ => ⟨S2x16x2048x128, .f32⟩
  | .hbm, ⟨78, _⟩ => ⟨S2x16x2048x128, .f32⟩
  | .hbm, ⟨79, _⟩ => ⟨S2x16x2048x128, .f32⟩
  | .hbm, ⟨80, _⟩ => ⟨S2x2048x16x128, .f32⟩
  | .hbm, ⟨81, _⟩ => ⟨S2x2048x2048, .f32⟩
  | .hbm, ⟨82, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call0_v0 : Ref sig .tc := ⟨.hbm, 63, rfl⟩
abbrev main_call0_cst : Ref sig .tc := ⟨.hbm, 64, rfl⟩
abbrev main_call0_v1 : Ref sig .tc := ⟨.hbm, 65, rfl⟩
abbrev main_call0_v2 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  shapeCasts_S2x2048x512_S2x2048x4x128 : S2x2048x512.ShapeCasts S2x2048x4x128
  transposes_S2x2048x4x128_S2x4x2048x128_0_2_1_3 : S2x2048x4x128.Transposes [0, 2, 1, 3] S2x4x2048x128
  reducesTo_S2x16x2048x128_S2x16x2048_d3 : S2x16x2048x128.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x128_0_1_2_3 : S2x16x2048x1.BroadcastsInDim S2x16x2048x128 (![0, 1, 2, 3] : Fin 4 → Fin S2x16x2048x128.rank)
  reducesTo_S2x4x2048x128_S2x4x2048_d3 : S2x4x2048x128.ReducesTo [3] S2x4x2048
  bcast_S2x4x2048_S2x4x2048x1_0_1_2 : S2x4x2048.BroadcastsInDim S2x4x2048x1 (![0, 1, 2] : Fin 3 → Fin S2x4x2048x1.rank)
  bcast_S_S2x4x2048x1 : S_.BroadcastsInDim S2x4x2048x1 (![] : Fin 0 → Fin S2x4x2048x1.rank)
  bcast_S2x4x2048x1_S2x4x2048x128_0_1_2_3 : S2x4x2048x1.BroadcastsInDim S2x4x2048x128 (![0, 1, 2, 3] : Fin 4 → Fin S2x4x2048x128.rank)
  bcast_S2x4x2048x128_S2x4x4x2048x128_0_1_3_4 : S2x4x2048x128.BroadcastsInDim S2x4x4x2048x128 (![0, 1, 3, 4] : Fin 4 → Fin S2x4x4x2048x128.rank)
  shapeCasts_S2x4x4x2048x128_S2x16x2048x128 : S2x4x4x2048x128.ShapeCasts S2x16x2048x128
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x2048x2048_S2048x2048_S2x2048x2048_2_1_01_0_n_n_wf : DotDims.WF S2x2048x2048 S2048x2048 S2x2048x2048 [2] [1] [0, 1] [0] [] []
  dot_S2x2048x2048_S512x2048_S2x2048x512_2_1_01_0_n_n_wf : DotDims.WF S2x2048x2048 S512x2048 S2x2048x512 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf
def dot_S2x2048x2048_S512x2048_S2x2048x512_2_1_01_0_n_n : DotDims S2x2048x2048 S512x2048 S2x2048x512 where
  lhsContracting := [2]
  rhsContracting := [1]
  lhsNonContracting := [0, 1]
  rhsNonContracting := [0]
  lhsBatch := []
  rhsBatch := []
  wf := dot_S2x2048x2048_S512x2048_S2x2048x512_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Spec.lean ====
/-
  The mathematics of the two programs, on the extended reals, with no program in sight.

  Both compute grouped-query attention with a self-value correction. Write x for the input
  [2, 2048, 2048] (batch b, position n, channel c) and Wq, Wk, Wv, Wo for the four weight matrices,
  each applied as a linear layer (row o of W against the channels). Head h of 16 uses key/value head
  h / 4 of 4; a head has 128 lanes d, and column h * 128 + d of a [*, 2048] matrix is lane d of head h.

    q, k  : the projections, each head's 128 lanes scaled by 1 / sqrt(mean of squares + eps)
    s     : (sum over d of q * k) * c           with c the literal 128^(-1/2) as an f32
    a     : softmax of s over the 2048 keys     (exp (s - max s) / sum of those)
    y0    : sum over keys of a * v
    vn    : v / max(sqrt(sum over d of v^2), eps')
    y     : y0 - (sum over d of y0 * vn) * vn   with vn taken at the QUERY's position
    out   : the linear layer Wo of y laid out [b, n, h * 128 + d]

  Two readings are stated here. The first follows the kernel's three launches: matrices with
  4096 = 2 * 2048 rows (row b * 2048 + n), the scale c already folded into q, the attention read off
  column blocks. The second follows the reference: coordinates (b, h, n, d), the scale applied to the
  scores. `kernelOut_eq_G` (proved in its own module) says they are one function.
-/
import Idealize.ShloMosaic.PureOps.Ideal
import Idealize.ShloMosaic.Lib.ValueIdx

noncomputable section

open scoped BigOperators

namespace Cert.Attn

open Idealize.ShloMosaic Idealize.ShloMosaic.ValueIdx

/-- A matrix of extended reals with `r` rows and `c` columns. -/
abbrev Mat (r c : Nat) : Type := (⟨2, ![r, c]⟩ : Shape).Idx → EReal
/-- A rank-3 array of extended reals. -/
abbrev Ten3 (a b c : Nat) : Type := (⟨3, ![a, b, c]⟩ : Shape).Idx → EReal

/-! ## The literals, as the words both programs print -/

/-- 128, the number of lanes a mean is taken over. -/
abbrev c128 : EReal := Ideal.ofBits .f32 0x43000000#32
/-- The RMS normalisation's epsilon, 2^-23. -/
abbrev epsR : EReal := Ideal.ofBits .f32 0x34000000#32
/-- The score scale: 128^(-1/2) rounded to f32. -/
abbrev scl : EReal := Ideal.ofBits .f32 0x3DB504F3#32
/-- The floor under the value's norm: 1e-12 rounded to f32. -/
abbrev epsN : EReal := Ideal.ofBits .f32 0x2B8CBCCC#32
/-- Minus infinity, the value a maximum starts from. -/
abbrev ninf : EReal := Ideal.ofBits .f32 0xFF800000#32

/-! ## Coordinates -/

/-- Column of lane `d` of head `h` in a 2048-wide row. -/
def colQ (h : Fin 16) (d : Fin 128) : Fin 2048 := ⟨h.val * 128 + d.val, by have := h.isLt; have := d.isLt; omega⟩
/-- Column of lane `d` of key/value head `g` in a 512-wide row. -/
def colK (g : Fin 4) (d : Fin 128) : Fin 512 := ⟨g.val * 128 + d.val, by have := g.isLt; have := d.isLt; omega⟩
/-- Row of position `n` of batch `b` among the 4096 flattened rows. -/
def rowB (b : Fin 2) (n : Fin 2048) : Fin 4096 := ⟨b.val * 2048 + n.val, by have := b.isLt; have := n.isLt; omega⟩
/-- The key/value head a query head reads. -/
def kvOf (h : Fin 16) : Fin 4 := ⟨h.val / 4, by have := h.isLt; omega⟩
/-- The head a column of a 2048-wide row belongs to. -/
def headOf (c : Fin 2048) : Fin 16 := ⟨c.val / 128, by have := c.isLt; omega⟩
/-- The key/value head a column of a 512-wide row belongs to. -/
def kvOfCol (c : Fin 512) : Fin 4 := ⟨c.val / 128, by have := c.isLt; omega⟩
/-- The lane of a column. -/
def laneOf {n : Nat} (c : Fin n) : Fin 128 := ⟨c.val % 128, Nat.mod_lt _ (by decide)⟩
/-- The batch of a flattened row. -/
def batchOf (n : Fin 4096) : Fin 2 := ⟨n.val / 2048, by have := n.isLt; omega⟩
/-- The position of a flattened row. -/
def posOf (n : Fin 4096) : Fin 2048 := ⟨n.val % 2048, Nat.mod_lt _ (by decide)⟩

/-! ## The pieces shared by both readings -/

/-- The factor an RMS normalisation multiplies 128 lanes by. -/
def rmsInv (t : Fin 128 → EReal) : EReal := Ideal.rsqrt (Ideal.div (∑ d : Fin 128, t d * t d) c128 + epsR)
/-- The denominator of an L2 normalisation of 128 lanes. -/
def l2den (t : Fin 128 → EReal) : EReal := max (Ideal.sqrt (∑ d : Fin 128, t d * t d)) epsN
/-- The largest of 2048 scores, from minus infinity. -/
def rowMax (s : Fin 2048 → EReal) : EReal := (Finset.univ : Finset (Fin 2048)).fold max ninf s
/-- Softmax over 2048 scores, at key `k`. -/
def softmax (s : Fin 2048 → EReal) (k : Fin 2048) : EReal :=
  Ideal.div (Ideal.exp (s k - rowMax s)) (∑ k' : Fin 2048, Ideal.exp (s k' - rowMax s))

/-! ## The kernel's reading: three launches over matrices of 4096 rows -/

/-- A linear layer: row `n` of `X` against row `o` of `W`. -/
def mm {R O : Nat} (X : Mat R 2048) (W : Mat O 2048) (n : Fin R) (o : Fin O) : EReal :=
  ∑ c : Fin 2048, X (ix2 n c) * W (ix2 o c)

/-- First launch, queries: projected, RMS-normalised per head, and scaled. -/
def qAt {R : Nat} (X : Mat R 2048) (Wq : Mat 2048 2048) (n : Fin R) (col : Fin 2048) : EReal :=
  mm X Wq n col * rmsInv (fun d => mm X Wq n (colQ (headOf col) d)) * scl
/-- First launch, keys: projected and RMS-normalised per key/value head. -/
def kAt {R : Nat} (X : Mat R 2048) (Wk : Mat 512 2048) (n : Fin R) (col : Fin 512) : EReal :=
  mm X Wk n col * rmsInv (fun d => mm X Wk n (colK (kvOfCol col) d))
/-- First launch, values: projected. -/
def vAt {R : Nat} (X : Mat R 2048) (Wv : Mat 512 2048) (n : Fin R) (col : Fin 512) : EReal := mm X Wv n col
/-- First launch, normalised values: each key/value head's lanes over their floored L2 norm. -/
def vnAt {R : Nat} (X : Mat R 2048) (Wv : Mat 512 2048) (n : Fin R) (col : Fin 512) : EReal :=
  Ideal.div (mm X Wv n col) (l2den (fun d => mm X Wv n (colK (kvOfCol col) d)))

/-- The four outputs of the first launch as whole matrices (of any number of rows: a block of rows gives that block). -/
def qArr {R : Nat} (X : Mat R 2048) (Wq : Mat 2048 2048) : Mat R 2048 :=
  fun i => qAt X Wq ⟨(i 0).val, (i 0).isLt⟩ ⟨(i 1).val, (i 1).isLt⟩
def kArr {R : Nat} (X : Mat R 2048) (Wk : Mat 512 2048) : Mat R 512 :=
  fun i => kAt X Wk ⟨(i 0).val, (i 0).isLt⟩ ⟨(i 1).val, (i 1).isLt⟩
def vArr {R : Nat} (X : Mat R 2048) (Wv : Mat 512 2048) : Mat R 512 :=
  fun i => vAt X Wv ⟨(i 0).val, (i 0).isLt⟩ ⟨(i 1).val, (i 1).isLt⟩
def vnArr {R : Nat} (X : Mat R 2048) (Wv : Mat 512 2048) : Mat R 512 :=
  fun i => vnAt X Wv ⟨(i 0).val, (i 0).isLt⟩ ⟨(i 1).val, (i 1).isLt⟩

/-- Second launch: the score of query row `n`, head `h`, against key `k` of the same batch (the scale is in `Q`). -/
def scoreK (Q : Mat 4096 2048) (K : Mat 4096 512) (n : Fin 4096) (h : Fin 16) (k : Fin 2048) : EReal :=
  ∑ d : Fin 128, Q (ix2 n (colQ h d)) * K (ix2 (rowB (batchOf n) k) (colK (kvOf h) d))
/-- Second launch: the attention-weighted values, lane `d`. -/
def mixK (Q : Mat 4096 2048) (K V : Mat 4096 512) (n : Fin 4096) (h : Fin 16) (d : Fin 128) : EReal :=
  ∑ k : Fin 2048, softmax (scoreK Q K n h) k * V (ix2 (rowB (batchOf n) k) (colK (kvOf h) d))
/-- Second launch: the mixed values less their component along the query position's normalised value. -/
def attnAt (Q : Mat 4096 2048) (K V VN : Mat 4096 512) (n : Fin 4096) (col : Fin 2048) : EReal :=
  mixK Q K V n (headOf col) (laneOf col)
    - (∑ d : Fin 128, mixK Q K V n (headOf col) d * VN (ix2 n (colK (kvOf (headOf col)) d)))
      * VN (ix2 n (colK (kvOf (headOf col)) (laneOf col)))
/-- The second launch's output as a whole matrix. -/
def attnArr (Q : Mat 4096 2048) (K V VN : Mat 4096 512) : Mat 4096 2048 :=
  fun i => attnAt Q K V VN ⟨(i 0).val, (i 0).isLt⟩ ⟨(i 1).val, (i 1).isLt⟩

/-! ### One grid point of the second launch, one head: 512 queries against the 2048 keys of their batch -/

/-- Scores of a block of queries against a block of keys (128 lanes each). -/
def blkScore (q : Mat 512 128) (k : Mat 2048 128) (i : Fin 512) (key : Fin 2048) : EReal :=
  ∑ d : Fin 128, q (ix2 i d) * k (ix2 key d)
/-- The attention-weighted values of the block. -/
def blkMix (q : Mat 512 128) (k v : Mat 2048 128) (i : Fin 512) (d : Fin 128) : EReal :=
  ∑ key : Fin 2048, softmax (blkScore q k i) key * v (ix2 key d)
/-- The block's result: the mixed values less their component along the queries' normalised values. -/
def attnBlk (q : Mat 512 128) (k v : Mat 2048 128) (vn : Mat 512 128) : Mat 512 128 :=
  fun j => blkMix q k v ⟨(j 0).val, (j 0).isLt⟩ ⟨(j 1).val, (j 1).isLt⟩
    - (∑ d : Fin 128, blkMix q k v ⟨(j 0).val, (j 0).isLt⟩ d * vn (ix2 (⟨(j 0).val, (j 0).isLt⟩ : Fin 512) d))
      * vn (ix2 (⟨(j 0).val, (j 0).isLt⟩ : Fin 512) (⟨(j 1).val, (j 1).isLt⟩ : Fin 128))

/-- Third launch: the output linear layer. -/
def oArr {R : Nat} (Y : Mat R 2048) (Wo : Mat 2048 2048) : Mat R 2048 :=
  fun i => mm Y Wo ⟨(i 0).val, (i 0).isLt⟩ ⟨(i 1).val, (i 1).isLt⟩

/-- The input with batch and position flattened into 4096 rows. -/
def flat (x : Ten3 2 2048 2048) : Mat 4096 2048 :=
  fun i => x (ix3 (batchOf ⟨(i 0).val, (i 0).isLt⟩) (posOf ⟨(i 0).val, (i 0).isLt⟩) (⟨(i 1).val, (i 1).isLt⟩ : Fin 2048))

/-- The kernel's result: the three launches composed, the rows unflattened. -/
def kernelOut (x : Ten3 2 2048 2048) (wq : Mat 2048 2048) (wk wv : Mat 512 2048) (wo : Mat 2048 2048) : Ten3 2 2048 2048 :=
  fun i => oArr (attnArr (qArr (flat x) wq) (kArr (flat x) wk) (vArr (flat x) wv) (vnArr (flat x) wv)) wo
    (ix2 (rowB ⟨(i 0).val, (i 0).isLt⟩ ⟨(i 1).val, (i 1).isLt⟩) (⟨(i 2).val, (i 2).isLt⟩ : Fin 2048))

/-! ## The reference's reading: coordinates (batch, head, position, lane) -/

/-- A linear layer of the rank-3 input. -/
def proj {O : Nat} (x : Ten3 2 2048 2048) (w : Mat O 2048) (b : Fin 2) (n : Fin 2048) (o : Fin O) : EReal :=
  ∑ c : Fin 2048, x (ix3 b n c) * w (ix2 o c)
/-- Normalised queries. -/
def qn (x : Ten3 2 2048 2048) (wq : Mat 2048 2048) (b : Fin 2) (h : Fin 16) (n : Fin 2048) (d : Fin 128) : EReal :=
  proj x wq b n (colQ h d) * rmsInv (fun d' => proj x wq b n (colQ h d'))
/-- Normalised keys. -/
def kn (x : Ten3 2 2048 2048) (wk : Mat 512 2048) (b : Fin 2) (g : Fin 4) (n : Fin 2048) (d : Fin 128) : EReal :=
  proj x wk b n (colK g d) * rmsInv (fun d' => proj x wk b n (colK g d'))
/-- Values. -/
def vh (x : Ten3 2 2048 2048) (wv : Mat 512 2048) (b : Fin 2) (g : Fin 4) (n : Fin 2048) (d : Fin 128) : EReal :=
  proj x wv b n (colK g d)
/-- Scaled scores. -/
def score (x : Ten3 2 2048 2048) (wq : Mat 2048 2048) (wk : Mat 512 2048) (b : Fin 2) (h : Fin 16) (q k : Fin 2048) : EReal :=
  (∑ d : Fin 128, qn x wq b h q d * kn x wk b (kvOf h) k d) * scl
/-- Attention-weighted values. -/
def mix (x : Ten3 2 2048 2048) (wq : Mat 2048 2048) (wk wv : Mat 512 2048) (b : Fin 2) (h : Fin 16) (q : Fin 2048) (d : Fin 128) : EReal :=
  ∑ k : Fin 2048, softmax (score x wq wk b h q) k * vh x wv b (kvOf h) k d
/-- Normalised values. -/
def vn (x : Ten3 2 2048 2048) (wv : Mat 512 2048) (b : Fin 2) (g : Fin 4) (n : Fin 2048) (d : Fin 128) : EReal :=
  Ideal.div (vh x wv b g n d) (l2den (fun d' => vh x wv b g n d'))
/-- The corrected attention output. -/
def yh (x : Ten3 2 2048 2048) (wq : Mat 2048 2048) (wk wv : Mat 512 2048) (b : Fin 2) (h : Fin 16) (q : Fin 2048) (d : Fin 128) : EReal :=
  mix x wq wk wv b h q d
    - (∑ d' : Fin 128, mix x wq wk wv b h q d' * vn x wv b (kvOf h) q d') * vn x wv b (kvOf h) q d
/-- The output linear layer over the heads laid side by side. -/
def outAt (x : Ten3 2 2048 2048) (wq : Mat 2048 2048) (wk wv : Mat 512 2048) (wo : Mat 2048 2048) (b : Fin 2) (n : Fin 2048) (o : Fin 2048) : EReal :=
  ∑ c : Fin 2048, yh x wq wk wv b (headOf c) n (laneOf c) * wo (ix2 o c)
/-- The common result, as one function of the five arguments. -/
def G (x : Ten3 2 2048 2048) (wq : Mat 2048 2048) (wk wv : Mat 512 2048) (wo : Mat 2048 2048) : Ten3 2 2048 2048 :=
  fun i => outAt x wq wk wv wo ⟨(i 0).val, (i 0).isLt⟩ ⟨(i 1).val, (i 1).isLt⟩ ⟨(i 2).val, (i 2).isLt⟩

end Cert.Attn

end
-- ==== Proof.Launch0QK.lean ====
/- The first launch's query and key outputs: after its 16 grid points (256 rows each) the two arrays hold,
   index by index, the projected, RMS-normalised (and, for the queries, scaled) rows of the arrays the launch found.

   Three steps. One block of 256 rows: the body's arithmetic at an entry (p, c) is the row-p linear layer at column c
   times the reciprocal root of the mean square (plus epsilon) of the 128 lanes of c's head, the lanes being the columns
   h * 128 + d of the same row. Row locality: that entry reads the input on row p alone, so a block of rows of the input
   gives the same block of rows of the whole-array function. The grid: point t holds rows 256 t … 256 t + 255, every
   weight block is the whole weight matrix, and row r is written by point r / 256; the 16 blocks tile the 4096 rows. -/
import proofs.«414553_j38508676776103_3_alg».proof.Proof.Gen.KernelIdeal.Frame
import proofs.«414553_j38508676776103_3_alg».proof.Proof.Spec
import Idealize.ShloMosaic.PureOps.Ideal.Laws
import Idealize.ShloMosaic.Lib.Pipeline.Value
import Idealize.ShloMosaic.Lib.ValueIdx

set_option maxRecDepth 16384

noncomputable section

open scoped BigOperators

namespace Cert.Attn.Launch0QK

open Cert.KernelIdeal Cert.KernelIdeal.Gen Cert.Attn
open Idealize.ShloMosaic Idealize.ShloMosaic.TcCoe Idealize.ShloMosaic.ValueIdx Idealize.SL.Sem
open Idealize.ShloMosaic.Pipeline (Dat Cfg Window)

/-! ## The two projections at an index -/

theorem dq_lhs_0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem dq_lhs_1 (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
theorem dq_rhs_0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem dq_rhs_1 (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- The query projection of a block of rows: entry (p, o) is row p of the block against row o of the weights. -/
theorem matmul_q_apply (a : FVec Ideal S256x2048 .bf16) (b : FVec Ideal S2048x2048 .bf16) (p : Fin 256) (o : Fin 2048) :
    matmul dot_S256x2048_S2048x2048_S256x2048_1_1_0_0_n_n none a b (constant (F := Ideal) S256x2048 .f32 0x00000000#32) (ix2 p o)
      = ∑ k : Fin 2048, a (ix2 p k) * b (ix2 o k) := by
  simp only [matmul]
  rw [Ideal.matmul_constant_zero_apply, ← Equiv.sum_comp (ValueIdx.contrEquiv1 dot_S256x2048_S2048x2048_S256x2048_1_1_0_0_n_n 2048 rfl rfl).symm]
  refine Finset.sum_congr rfl fun k _ => ?_
  have hk := ValueIdx.contrEquiv1_symm_val dot_S256x2048_S2048x2048_S256x2048_1_1_0_0_n_n 2048 rfl rfl k
  have el : dot_S256x2048_S2048x2048_S256x2048_1_1_0_0_n_n.lhsIdx (ix2 p o) ((ValueIdx.contrEquiv1 dot_S256x2048_S2048x2048_S256x2048_1_1_0_0_n_n 2048 rfl rfl).symm k) = ix2 p k := funext fun a => Fin.ext (by
    match a with
    | ⟨0, _⟩ => exact dq_lhs_0 _ _
    | ⟨1, _⟩ => exact (dq_lhs_1 _ _).trans hk)
  have er : dot_S256x2048_S2048x2048_S256x2048_1_1_0_0_n_n.rhsIdx (ix2 p o) ((ValueIdx.contrEquiv1 dot_S256x2048_S2048x2048_S256x2048_1_1_0_0_n_n 2048 rfl rfl).symm k) = ix2 o k := funext fun a => Fin.ext (by
    match a with
    | ⟨0, _⟩ => exact dq_rhs_0 _ _
    | ⟨1, _⟩ => exact (dq_rhs_1 _ _).trans hk)
  rw [el, er]

theorem dk_lhs_0 (i : S256x512.Idx) (q : dot_S256x2048_S512x2048_S256x512_1_1_0_0_n_n.contr.Idx) :
    (dot_S256x2048_S512x2048_S256x512_1_1_0_0_n_n.lhsIdx i q 0).val = (i 0).val := by
  unfold DotDims.lhsIdx
  rw [dif_neg (show ¬(0 : Fin S256x2048.rank) ∈ dot_S256x2048_S512x2048_S256x512_1_1_0_0_n_n.lhsBatch by decide), dif_pos (show (0 : Fin S256x2048.rank) ∈ dot_S256x2048_S512x2048_S256x512_1_1_0_0_n_n.lhsNonContracting by decide)]
  rfl
theorem dk_lhs_1 (i : S256x512.Idx) (q : dot_S256x2048_S512x2048_S256x512_1_1_0_0_n_n.contr.Idx) :
    (dot_S256x2048_S512x2048_S256x512_1_1_0_0_n_n.lhsIdx i q 1).val = (q ⟨0, by decide⟩).val :=
  dot_S256x2048_S512x2048_S256x512_1_1_0_0_n_n.lhsIdx_val_of_single rfl i q
theorem dk_rhs_0 (i : S256x512.Idx) (q : dot_S256x2048_S512x2048_S256x512_1_1_0_0_n_n.contr.Idx) :
    (dot_S256x2048_S512x2048_S256x512_1_1_0_0_n_n.rhsIdx i q 0).val = (i 1).val := by
  unfold DotDims.rhsIdx
  rw [dif_neg (show ¬(0 : Fin S512x2048.rank) ∈ dot_S256x2048_S512x2048_S256x512_1_1_0_0_n_n.rhsBatch by decide), dif_pos (show (0 : Fin S512x2048.rank) ∈ dot_S256x2048_S512x2048_S256x512_1_1_0_0_n_n.rhsNonContracting by decide)]
  rfl
theorem dk_rhs_1 (i : S256x512.Idx) (q : dot_S256x2048_S512x2048_S256x512_1_1_0_0_n_n.contr.Idx) :
    (dot_S256x2048_S512x2048_S256x512_1_1_0_0_n_n.rhsIdx i q 1).val = (q ⟨0, by decide⟩).val :=
  dot_S256x2048_S512x2048_S256x512_1_1_0_0_n_n.rhsIdx_val_of_single rfl i q

/-- The key projection of a block of rows, likewise. -/
theorem matmul_k_apply (a : FVec Ideal S256x2048 .bf16) (b : FVec Ideal S512x2048 .bf16) (p : Fin 256) (o : Fin 512) :
    matmul dot_S256x2048_S512x2048_S256x512_1_1_0_0_n_n none a b (constant (F := Ideal) S256x512 .f32 0x00000000#32) (ix2 p o)
      = ∑ k : Fin 2048, a (ix2 p k) * b (ix2 o k) := by
  simp only [matmul]
  rw [Ideal.matmul_constant_zero_apply, ← Equiv.sum_comp (ValueIdx.contrEquiv1 dot_S256x2048_S512x2048_S256x512_1_1_0_0_n_n 2048 rfl rfl).symm]
  refine Finset.sum_congr rfl fun k _ => ?_
  have hk := ValueIdx.contrEquiv1_symm_val dot_S256x2048_S512x2048_S256x512_1_1_0_0_n_n 2048 rfl rfl k
  have el : dot_S256x2048_S512x2048_S256x512_1_1_0_0_n_n.lhsIdx (ix2 p o) ((ValueIdx.contrEquiv1 dot_S256x2048_S512x2048_S256x512_1_1_0_0_n_n 2048 rfl rfl).symm k) = ix2 p k := funext fun a => Fin.ext (by
    match a with
    | ⟨0, _⟩ => exact dk_lhs_0 _ _
    | ⟨1, _⟩ => exact (dk_lhs_1 _ _).trans hk)
  have er : dot_S256x2048_S512x2048_S256x512_1_1_0_0_n_n.rhsIdx (ix2 p o) ((ValueIdx.contrEquiv1 dot_S256x2048_S512x2048_S256x512_1_1_0_0_n_n 2048 rfl rfl).symm k) = ix2 o k := funext fun a => Fin.ext (by
    match a with
    | ⟨0, _⟩ => exact dk_rhs_0 _ _
    | ⟨1, _⟩ => exact (dk_rhs_1 _ _).trans hk)
  rw [el, er]

/-! ## Heads and lanes: a row of 2048 columns is 16 heads of 128 lanes -/

/-- Splitting the columns into heads: lane d of head h is column h * 128 + d. -/
theorem heads16_apply {α : Type} (v : S256x2048.Idx → α) (h : S256x2048.ShapeCasts S256x16x128) (p : Fin 256) (hh : Fin 16) (d : Fin 128) :
    shapeCast S256x16x128 v h (ix3 p hh d) = v (ix2 p (colQ hh d)) :=
  shapeCast_apply v h (ix3 p hh d) (ix2 p (colQ hh d)) (by
    rewrite [Shape.rowMajor_val_two, Shape.rowMajor_val_three]
    have h0 := p.isLt; have h1 := hh.isLt; have h2 := d.isLt
    show p.val * 2048 + (hh.val * 128 + d.val) = (p.val * 16 + hh.val) * 128 + d.val
    omega)

/-- Laying the heads side by side again: column c is lane c % 128 of head c / 128. -/
theorem unheads16_apply {α : Type} (v : S256x16x128.Idx → α) (h : S256x16x128.ShapeCasts S256x2048) (p : Fin 256) (c : Fin 2048) :
    shapeCast S256x2048 v h (ix2 p c) = v (ix3 p (headOf c) (laneOf c)) :=
  shapeCast_apply v h (ix2 p c) (ix3 p (headOf c) (laneOf c)) (by
    rewrite [Shape.rowMajor_val_two, Shape.rowMajor_val_three]
    have h0 := p.isLt; have h1 := c.isLt
    show (p.val * 16 + c.val / 128) * 128 + c.val % 128 = p.val * 2048 + c.val
    omega)

/-- A per-head scalar kept as a column of one lane. -/
theorem keep16_apply {α : Type} (v : S256x16.Idx → α) (h : S256x16.ShapeCasts S256x16x1) (p : Fin 256) (hh : Fin 16) (z : Fin 1) :
    shapeCast S256x16x1 v h (ix3 p hh z) = v (ix2 p hh) :=
  shapeCast_apply v h (ix3 p hh z) (ix2 p hh) (by
    rewrite [Shape.rowMajor_val_two, Shape.rowMajor_val_three]
    have h0 := p.isLt; have h1 := hh.isLt; have h2 := z.isLt
    show p.val * 16 + hh.val = (p.val * 16 + hh.val) * 1 + z.val
    omega)

/-- That column spread over the head's 128 lanes. -/
theorem spread16_apply {α : Type} (v : S256x16x1.Idx → α) (h : S256x16x1.Broadcasts S256x16x128) (p : Fin 256) (hh : Fin 16) (d : Fin 128) :
    broadcastTo S256x16x128 v h (ix3 p hh d) = v (ix3 p hh (0 : Fin 1)) :=
  broadcastTo_apply v h (ix3 p hh d) (ix3 p hh (0 : Fin 1)) (fun a => by
    match a with
    | ⟨0, _⟩ => rfl
    | ⟨1, _⟩ => rfl
    | ⟨2, _⟩ => rfl)

/-- The sum over a head's lanes. -/
theorem lanesum16_apply (v : FVec Ideal S256x16x128 .f32) (h : S256x16x128.Reduces [2] S256x16) (hφ : FTy.f32 = FTy.f32 ∨ FTy.f32 = FTy.bf16)
    (hacc : (0x00000000#32 : BitVec 32) = 0x00000000#32) (p : Fin 256) (hh : Fin 16) :
    multiReduction (F := Ideal) .add [2] S256x16 v 0x00000000#32 h hφ hacc (ix2 p hh) = ∑ d : Fin 128, v (ix3 p hh d) := by
  refine (Ideal.multiReduction_add_single v 0x00000000#32 h hφ hacc (ix2 p hh)).trans ?_
  refine Finset.sum_congr rfl fun d _ => congrArg v (funext fun a => Fin.ext ?_)
  match a with
  | ⟨0, _⟩ => rfl
  | ⟨1, _⟩ => rfl
  | ⟨2, _⟩ => rfl

/-! ## The same for the keys: a row of 512 columns is 4 key/value heads of 128 lanes -/

/-- Splitting the columns into heads: lane d of head h is column h * 128 + d. -/
theorem heads4_apply {α : Type} (v : S256x512.Idx → α) (h : S256x512.ShapeCasts S256x4x128) (p : Fin 256) (hh : Fin 4) (d : Fin 128) :
    shapeCast S256x4x128 v h (ix3 p hh d) = v (ix2 p (colK hh d)) :=
  shapeCast_apply v h (ix3 p hh d) (ix2 p (colK hh d)) (by
    rewrite [Shape.rowMajor_val_two, Shape.rowMajor_val_three]
    have h0 := p.isLt; have h1 := hh.isLt; have h2 := d.isLt
    show p.val * 512 + (hh.val * 128 + d.val) = (p.val * 4 + hh.val) * 128 + d.val
    omega)

/-- Laying the heads side by side again: column c is lane c % 128 of head c / 128. -/
theorem unheads4_apply {α : Type} (v : S256x4x128.Idx → α) (h : S256x4x128.ShapeCasts S256x512) (p : Fin 256) (c : Fin 512) :
    shapeCast S256x512 v h (ix2 p c) = v (ix3 p (kvOfCol c) (laneOf c)) :=
  shapeCast_apply v h (ix2 p c) (ix3 p (kvOfCol c) (laneOf c)) (by
    rewrite [Shape.rowMajor_val_two, Shape.rowMajor_val_three]
    have h0 := p.isLt; have h1 := c.isLt
    show (p.val * 4 + c.val / 128) * 128 + c.val % 128 = p.val * 512 + c.val
    omega)

/-- A per-head scalar kept as a column of one lane. -/
theorem keep4_apply {α : Type} (v : S256x4.Idx → α) (h : S256x4.ShapeCasts S256x4x1) (p : Fin 256) (hh : Fin 4) (z : Fin 1) :
    shapeCast S256x4x1 v h (ix3 p hh z) = v (ix2 p hh) :=
  shapeCast_apply v h (ix3 p hh z) (ix2 p hh) (by
    rewrite [Shape.rowMajor_val_two, Shape.rowMajor_val_three]
    have h0 := p.isLt; have h1 := hh.isLt; have h2 := z.isLt
    show p.val * 4 + hh.val = (p.val * 4 + hh.val) * 1 + z.val
    omega)

/-- That column spread over the head's 128 lanes. -/
theorem spread4_apply {α : Type} (v : S256x4x1.Idx → α) (h : S256x4x1.Broadcasts S256x4x128) (p : Fin 256) (hh : Fin 4) (d : Fin 128) :
    broadcastTo S256x4x128 v h (ix3 p hh d) = v (ix3 p hh (0 : Fin 1)) :=
  broadcastTo_apply v h (ix3 p hh d) (ix3 p hh (0 : Fin 1)) (fun a => by
    match a with
    | ⟨0, _⟩ => rfl
    | ⟨1, _⟩ => rfl
    | ⟨2, _⟩ => rfl)

/-- The sum over a head's lanes. -/
theorem lanesum4_apply (v : FVec Ideal S256x4x128 .f32) (h : S256x4x128.Reduces [2] S256x4) (hφ : FTy.f32 = FTy.f32 ∨ FTy.f32 = FTy.bf16)
    (hacc : (0x00000000#32 : BitVec 32) = 0x00000000#32) (p : Fin 256) (hh : Fin 4) :
    multiReduction (F := Ideal) .add [2] S256x4 v 0x00000000#32 h hφ hacc (ix2 p hh) = ∑ d : Fin 128, v (ix3 p hh d) := by
  refine (Ideal.multiReduction_add_single v 0x00000000#32 h hφ hacc (ix2 p hh)).trans ?_
  refine Finset.sum_congr rfl fun d _ => congrArg v (funext fun a => Fin.ext ?_)
  match a with
  | ⟨0, _⟩ => rfl
  | ⟨1, _⟩ => rfl
  | ⟨2, _⟩ => rfl

/-! ## One block of rows: the body's arithmetic at an entry -/

/-- The reciprocal square root of a vector, entry by entry. -/
theorem rsqrt_at {s : Shape} {φ : FTy} (a : FVec Ideal s φ) (i : s.Idx) : rsqrt a i = Ideal.rsqrt (a i) := rfl

/-- A column is lane (c % 128) of head (c / 128). -/
theorem colQ_head_lane (c : Fin 2048) : colQ (headOf c) (laneOf c) = c :=
  Fin.ext (by show c.val / 128 * 128 + c.val % 128 = c.val; omega)

/-- The query payload of a block of 256 rows, entry by entry. -/
theorem pay5_apply (x0 : Vec Ideal S256x2048 .f32) (w : Vec Ideal S2048x2048 .bf16) (p : Fin 256) (q : Fin 2048) :
    k0_pay5 (F := Ideal) x0 w (ix2 p q) = qAt x0 w p q := by
  unfold k0_pay5 k0_pay4
  simp only [shapeCast_self]
  rw [truncf_apply, unheads16_apply]
  simp only [mulf_apply, broadcast_apply, spread16_apply, heads16_apply, rsqrt_at, addf_apply, divf_apply, keep16_apply,
    matmul_q_apply, truncf_apply, colQ_head_lane]
  rw [lanesum16_apply]
  simp only [mulf_apply, heads16_apply, matmul_q_apply, truncf_apply]
  rfl

/-- A key column is lane (c % 128) of key/value head (c / 128). -/
theorem colK_head_lane (c : Fin 512) : colK (kvOfCol c) (laneOf c) = c :=
  Fin.ext (by show c.val / 128 * 128 + c.val % 128 = c.val; omega)

/-- The key payload of a block of 256 rows, entry by entry. -/
theorem pay6_apply (x0 : Vec Ideal S256x2048 .f32) (w : Vec Ideal S512x2048 .bf16) (p : Fin 256) (q : Fin 512) :
    k0_pay6 (F := Ideal) x0 w (ix2 p q) = kAt x0 w p q := by
  unfold k0_pay6 k0_pay4
  simp only [shapeCast_self]
  rw [truncf_apply, unheads4_apply]
  simp only [mulf_apply, broadcast_apply, spread4_apply, heads4_apply, rsqrt_at, addf_apply, divf_apply, keep4_apply,
    matmul_k_apply, truncf_apply, colK_head_lane]
  rw [lanesum4_apply]
  simp only [mulf_apply, heads4_apply, matmul_k_apply, truncf_apply]
  rfl

-- The TensorCore's buffer contents when the launch is entered: a parameter, as in the generated frame.
variable (V : (c : Dev nD) → (b : Ref sig .tc) → Buf (Elt Ideal) ((c : Thread nD τ).loc b))

/-! ## From the 16 blocks to the arrays -/

theorem hz : (![0, 0] : Fin 2 → Nat) = fun _ => 0 := funext fun a => by fin_cases a <;> rfl

/-- The block index maps over the grid: the row-blocked windows (the input rows, the two outputs) sit at block (t, 0),
    the weights at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 16 := lt_of_lt_of_eq t.isLt (show cfg0.N = 16 from N_0)

/-- Point t's block of the input rows is rows 256 t … 256 t + 255 of the array. -/
theorem xblk_apply (c : Dev nD) (t : Fin cfg0.N) (n : Fin 256) (k : Fin 2048) (N : Fin 4096) (hN : N.val = t.val * 256 + n.val) :
    (iblk0 (F := Ideal) V c 0 t : Vec Ideal S256x2048 .f32) (ix2 n k) = (V c main_v0 : S4096x2048.Idx → EReal) (ix2 N k) := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 256 + 1 * n.val = N.val; rw [e0, hN]; omega
  | ⟨1, _⟩ => show win0_0.index t (1 : Fin 2) * 2048 + 1 * k.val = k.val; rw [e1]; omega

/-- Every point's block of the query weights is the whole matrix. -/
theorem wqblk_eq (c : Dev nD) (t : Fin cfg0.N) :
    (iblk0 (F := Ideal) V c 1 t : Vec Ideal S2048x2048 .bf16) = (V c main_v1 : S2048x2048.Idx → EReal) := by
  obtain ⟨-, -, e2, e3, -⟩ := idx_facts t
  funext j
  unfold iblk0
  rw [View.read_apply]
  show V c main_v1 _ = V c main_v1 _
  congr 1
  funext a
  apply Fin.ext
  match a with
  | ⟨0, _⟩ => show win0_1.index t (0 : Fin 2) * 2048 + 1 * (j 0).val = (j 0).val; rw [e2]; omega
  | ⟨1, _⟩ => show win0_1.index t (1 : Fin 2) * 2048 + 1 * (j 1).val = (j 1).val; rw [e3]; omega

/-- The projections read X on one row only: equal rows give equal entries. -/
theorem qAt_rows {R R' : Nat} (X : Mat R 2048) (X' : Mat R' 2048) (W : Mat 2048 2048) (n : Fin R) (n' : Fin R')
    (hX : ∀ k : Fin 2048, X (ix2 n k) = X' (ix2 n' k)) (col : Fin 2048) : qAt X W n col = qAt X' W n' col := by
  have hm : ∀ o : Fin 2048, mm X W n o = mm X' W n' o := fun o => Finset.sum_congr rfl fun k _ => by rw [hX k]
  unfold qAt
  simp only [hm]

/-- What point t writes back to the query array is its block of 256 rows of the normalised, scaled queries of the whole input. -/
theorem flushed_q (c : Dev nD) (t : Fin cfg0.N) :
    (dat0 (F := Ideal) V c).flushed 4 t = ((cfg0.win 4).blk t).view.read (Elt Ideal) (qArr (V c main_v0) (V c main_v1)) := by
  show (cfg0.win 4).cut (grid0.coords t) ((dat0 V c).after 4 t) = _
  rw [after0_4]
  unfold out0_4
  rw [View.canon_unit_zero hz]
  simp only [View.ld_unit_zero (S := S256x2048) hz, View.ld_unit_zero (S := S2048x2048) hz]
  obtain ⟨-, -, -, -, -, -, e6, e7, -⟩ := idx_facts t
  have ht := point_lt t
  funext j
  obtain ⟨p, q, rfl⟩ : ∃ (p : Fin 256) (q : Fin 2048), j = ix2 p q := ⟨⟨(j 0).val, (j 0).isLt⟩, ⟨(j 1).val, (j 1).isLt⟩, by funext a; match a with | ⟨0, _⟩ => rfl | ⟨1, _⟩ => rfl⟩
  show k0_pay5 (F := Ideal) (iblk0 V c 0 t) (iblk0 V c 1 t) (ix2 p q) = qArr (V c main_v0) (V c main_v1) (((cfg0.win 4).blk t).view.emb (ix2 p q))
  refine (pay5_apply _ _ p q).trans ?_
  have he : ((cfg0.win 4).blk t).view.emb (ix2 p q) = (ix2 (⟨t.val * 256 + p.val, by have := p.isLt; omega⟩ : Fin 4096) q : S4096x2048.Idx) := by
    funext a
    apply Fin.ext
    match a with
    | ⟨0, _⟩ => show win0_4.index t (0 : Fin 2) * 256 + 1 * p.val = t.val * 256 + p.val; rw [e6]; omega
    | ⟨1, _⟩ => show win0_4.index t (1 : Fin 2) * 2048 + 1 * q.val = q.val; rw [e7]; omega
  rw [he]
  show qAt _ _ p q = qAt (V c main_v0) (V c main_v1) (⟨t.val * 256 + p.val, by have := p.isLt; omega⟩ : Fin 4096) q
  rw [wqblk_eq V c t]
  exact qAt_rows _ _ _ p _ (fun k => xblk_apply V c t p k _ rfl) q

/-- An index of the query array lies in point t's block iff each coordinate lies in the block's range on its axis. -/
theorem mem_qblk (t : Fin cfg0.N) (i : S4096x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v5_0).slice (win0_4.rect t)).set ↔ _
  rw [View.set_slice_whole, Rect.mem_set_unit]
  exact Iff.rfl

/-- Row r of the query array lies in the block of point r / 256. -/
theorem cover_q (i : S4096x2048.Idx) : ∃ t : Fin cfg0.N, (cfg0.win 4).flush t = true ∧ i ∈ ((cfg0.win 4).blk t).view.set := by
  have hi0 : (i 0).val < 4096 := (i 0).isLt
  have hi1 : (i 1).val < 2048 := (i 1).isLt
  obtain ⟨t, ht⟩ : ∃ t : Fin cfg0.N, t.val = (i 0).val / 256 :=
    ⟨⟨(i 0).val / 256, lt_of_lt_of_eq (by omega) (show 16 = cfg0.N from N_0.symm)⟩, rfl⟩
  obtain ⟨-, -, -, -, -, -, e6, e7, -⟩ := idx_facts t
  refine ⟨t, flush0_4 t, ?_⟩
  rw [mem_qblk]
  intro a
  match a with
  | ⟨0, _⟩ => show win0_4.index t (0 : Fin 2) * 256 ≤ (i 0).val ∧ (i 0).val < win0_4.index t (0 : Fin 2) * 256 + 256; rw [e6, ht]; omega
  | ⟨1, _⟩ => show win0_4.index t (1 : Fin 2) * 2048 ≤ (i 1).val ∧ (i 1).val < win0_4.index t (1 : Fin 2) * 2048 + 2048; rw [e7]; omega

/-- The query array after the launch. -/
theorem q_final (c : Dev nD) :
    (dat0 (F := Ideal) V c).arrAt 4 cfg0.N = qArr (V c main_v0) (V c main_v1) := by
  exact (dat0 V c).arrAt_eq_of_cover 4 (qArr (V c main_v0) (V c main_v1)) (fun t _ => flushed_q V c t) cover_q

/-- Every point's block of the key weights is the whole matrix. -/
theorem wkblk_eq (c : Dev nD) (t : Fin cfg0.N) :
    (iblk0 (F := Ideal) V c 2 t : Vec Ideal S512x2048 .bf16) = (V c main_v2 : S512x2048.Idx → EReal) := by
  obtain ⟨-, -, -, -, e4, e5, -⟩ := idx_facts t
  funext j
  unfold iblk0
  rw [View.read_apply]
  show V c main_v2 _ = V c main_v2 _
  congr 1
  funext a
  apply Fin.ext
  match a with
  | ⟨0, _⟩ => show win0_2.index t (0 : Fin 2) * 512 + 1 * (j 0).val = (j 0).val; rw [e4]; omega
  | ⟨1, _⟩ => show win0_2.index t (1 : Fin 2) * 2048 + 1 * (j 1).val = (j 1).val; rw [e5]; omega

/-- The key projection reads X on one row only, too. -/
theorem kAt_rows {R R' : Nat} (X : Mat R 2048) (X' : Mat R' 2048) (W : Mat 512 2048) (n : Fin R) (n' : Fin R')
    (hX : ∀ k : Fin 2048, X (ix2 n k) = X' (ix2 n' k)) (col : Fin 512) : kAt X W n col = kAt X' W n' col := by
  have hm : ∀ o : Fin 512, mm X W n o = mm X' W n' o := fun o => Finset.sum_congr rfl fun k _ => by rw [hX k]
  unfold kAt
  simp only [hm]

/-- What point t writes back to the key array is its block of 256 rows of the normalised keys of the whole input. -/
theorem flushed_k (c : Dev nD) (t : Fin cfg0.N) :
    (dat0 (F := Ideal) V c).flushed 5 t = ((cfg0.win 5).blk t).view.read (Elt Ideal) (kArr (V c main_v0) (V c main_v2)) := by
  show (cfg0.win 5).cut (grid0.coords t) ((dat0 V c).after 5 t) = _
  rw [after0_5]
  unfold out0_5
  rw [View.canon_unit_zero hz]
  simp only [View.ld_unit_zero (S := S256x2048) hz, View.ld_unit_zero (S := S512x2048) hz]
  obtain ⟨-, -, -, -, -, -, -, -, e8, e9⟩ := idx_facts t
  have ht := point_lt t
  funext j
  obtain ⟨p, q, rfl⟩ : ∃ (p : Fin 256) (q : Fin 512), j = ix2 p q := ⟨⟨(j 0).val, (j 0).isLt⟩, ⟨(j 1).val, (j 1).isLt⟩, by funext a; match a with | ⟨0, _⟩ => rfl | ⟨1, _⟩ => rfl⟩
  show k0_pay6 (F := Ideal) (iblk0 V c 0 t) (iblk0 V c 2 t) (ix2 p q) = kArr (V c main_v0) (V c main_v2) (((cfg0.win 5).blk t).view.emb (ix2 p q))
  refine (pay6_apply _ _ p q).trans ?_
  have he : ((cfg0.win 5).blk t).view.emb (ix2 p q) = (ix2 (⟨t.val * 256 + p.val, by have := p.isLt; omega⟩ : Fin 4096) q : S4096x512.Idx) := by
    funext a
    apply Fin.ext
    match a with
    | ⟨0, _⟩ => show win0_5.index t (0 : Fin 2) * 256 + 1 * p.val = t.val * 256 + p.val; rw [e8]; omega
    | ⟨1, _⟩ => show win0_5.index t (1 : Fin 2) * 512 + 1 * q.val = q.val; rw [e9]; omega
  rw [he]
  show kAt _ _ p q = kAt (V c main_v0) (V c main_v2) (⟨t.val * 256 + p.val, by have := p.isLt; omega⟩ : Fin 4096) q
  rw [wkblk_eq V c t]
  exact kAt_rows _ _ _ p _ (fun k => xblk_apply V c t p k _ rfl) q

/-- An index of the key array lies in point t's block iff each coordinate lies in the block's range on its axis. -/
theorem mem_kblk (t : Fin cfg0.N) (i : S4096x512.Idx) :
    i ∈ ((cfg0.win 5).blk t).view.set ↔ ∀ a : Fin 2, win0_5.index t a * S256x512.size a ≤ (i a).val ∧ (i a).val < win0_5.index t a * S256x512.size a + S256x512.size a := by
  show i ∈ ((View.whole main_v5_1).slice (win0_5.rect t)).set ↔ _
  rw [View.set_slice_whole, Rect.mem_set_unit]
  exact Iff.rfl

/-- Row r of the key array lies in the block of point r / 256. -/
theorem cover_k (i : S4096x512.Idx) : ∃ t : Fin cfg0.N, (cfg0.win 5).flush t = true ∧ i ∈ ((cfg0.win 5).blk t).view.set := by
  have hi0 : (i 0).val < 4096 := (i 0).isLt
  have hi1 : (i 1).val < 512 := (i 1).isLt
  obtain ⟨t, ht⟩ : ∃ t : Fin cfg0.N, t.val = (i 0).val / 256 :=
    ⟨⟨(i 0).val / 256, lt_of_lt_of_eq (by omega) (show 16 = cfg0.N from N_0.symm)⟩, rfl⟩
  obtain ⟨-, -, -, -, -, -, -, -, e8, e9⟩ := idx_facts t
  refine ⟨t, flush0_5 t, ?_⟩
  rw [mem_kblk]
  intro a
  match a with
  | ⟨0, _⟩ => show win0_5.index t (0 : Fin 2) * 256 ≤ (i 0).val ∧ (i 0).val < win0_5.index t (0 : Fin 2) * 256 + 256; rw [e8, ht]; omega
  | ⟨1, _⟩ => show win0_5.index t (1 : Fin 2) * 512 ≤ (i 1).val ∧ (i 1).val < win0_5.index t (1 : Fin 2) * 512 + 512; rw [e9]; omega

/-- The key array after the launch. -/
theorem k_final (c : Dev nD) :
    (dat0 (F := Ideal) V c).arrAt 5 cfg0.N = kArr (V c main_v0) (V c main_v2) := by
  exact (dat0 V c).arrAt_eq_of_cover 5 (kArr (V c main_v0) (V c main_v2)) (fun t _ => flushed_k V c t) cover_k

end Cert.Attn.Launch0QK

end
-- ==== Proof.Launch0V.lean ====
/- The first launch's value outputs: after its 16 grid points the value array holds the projected rows and the
   normalised-value array each key/value head's lanes over their floored L2 norm. -/
import proofs.«414553_j38508676776103_3_alg».proof.Proof.Gen.KernelIdeal.Frame
import proofs.«414553_j38508676776103_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.Attn.Launch0V

open Cert.KernelIdeal Cert.KernelIdeal.Gen Cert.Attn
open Idealize.ShloMosaic Idealize.ShloMosaic.TcCoe Idealize.ShloMosaic.ValueIdx Idealize.SL.Sem
open Idealize.ShloMosaic.Pipeline (Dat Cfg Window)

-- The TensorCore's buffer contents when the launch is entered: a parameter, as in the generated frame.
variable (V : (c : Dev nD) → (b : Ref sig .tc) → Buf (Elt Ideal) ((c : Thread nD τ).loc b))

/-! ## The value projection at an entry

The product contracts axis 1 of both operands: entry (p, q) is the sum over the 2048 channels k of the block's
(p, k) times the weights' (q, k). -/

/-- The left operand's row is the output's row. -/
theorem lhs_v_0 (i : S256x512.Idx) (q : dot_S256x2048_S512x2048_S256x512_1_1_0_0_n_n.contr.Idx) :
    (dot_S256x2048_S512x2048_S256x512_1_1_0_0_n_n.lhsIdx i q 0).val = (i 0).val := by
  unfold DotDims.lhsIdx
  rw [dif_neg (show ¬(0 : Fin S256x2048.rank) ∈ dot_S256x2048_S512x2048_S256x512_1_1_0_0_n_n.lhsBatch by decide), dif_pos (show (0 : Fin S256x2048.rank) ∈ dot_S256x2048_S512x2048_S256x512_1_1_0_0_n_n.lhsNonContracting by decide)]
  rfl
/-- The left operand's column is the contracted channel. -/
theorem lhs_v_1 (i : S256x512.Idx) (q : dot_S256x2048_S512x2048_S256x512_1_1_0_0_n_n.contr.Idx) :
    (dot_S256x2048_S512x2048_S256x512_1_1_0_0_n_n.lhsIdx i q 1).val = (q ⟨0, by decide⟩).val :=
  dot_S256x2048_S512x2048_S256x512_1_1_0_0_n_n.lhsIdx_val_of_single rfl i q
/-- The right operand's row is the output's column. -/
theorem rhs_v_0 (i : S256x512.Idx) (q : dot_S256x2048_S512x2048_S256x512_1_1_0_0_n_n.contr.Idx) :
    (dot_S256x2048_S512x2048_S256x512_1_1_0_0_n_n.rhsIdx i q 0).val = (i 1).val := by
  unfold DotDims.rhsIdx
  rw [dif_neg (show ¬(0 : Fin S512x2048.rank) ∈ dot_S256x2048_S512x2048_S256x512_1_1_0_0_n_n.rhsBatch by decide), dif_pos (show (0 : Fin S512x2048.rank) ∈ dot_S256x2048_S512x2048_S256x512_1_1_0_0_n_n.rhsNonContracting by decide)]
  rfl
/-- The right operand's column is the contracted channel. -/
theorem rhs_v_1 (i : S256x512.Idx) (q : dot_S256x2048_S512x2048_S256x512_1_1_0_0_n_n.contr.Idx) :
    (dot_S256x2048_S512x2048_S256x512_1_1_0_0_n_n.rhsIdx i q 1).val = (q ⟨0, by decide⟩).val :=
  dot_S256x2048_S512x2048_S256x512_1_1_0_0_n_n.rhsIdx_val_of_single rfl i q

/-- The projection of a block of rows: entry (p, q) is row p of the block against row q of the weights. -/
theorem pay1_apply (x : FVec Ideal S256x2048 .bf16) (w : Vec Ideal S512x2048 .bf16) (p : Fin 256) (q : Fin 512) :
    k0_pay1 (F := Ideal) x w (ix2 p q) = ∑ k : Fin 2048, x (ix2 p k) * w (ix2 q k) := by
  unfold k0_pay1
  rw [shapeCast_self]
  simp only [matmul]
  rw [Ideal.matmul_constant_zero_apply, ← Equiv.sum_comp (ValueIdx.contrEquiv1 dot_S256x2048_S512x2048_S256x512_1_1_0_0_n_n 2048 rfl rfl).symm]
  refine Finset.sum_congr rfl fun k _ => ?_
  have hk := ValueIdx.contrEquiv1_symm_val dot_S256x2048_S512x2048_S256x512_1_1_0_0_n_n 2048 rfl rfl k
  have el : dot_S256x2048_S512x2048_S256x512_1_1_0_0_n_n.lhsIdx (ix2 p q) ((ValueIdx.contrEquiv1 dot_S256x2048_S512x2048_S256x512_1_1_0_0_n_n 2048 rfl rfl).symm k) = ix2 p k := funext fun a => Fin.ext (by
    match a with
    | ⟨0, _⟩ => exact lhs_v_0 _ _
    | ⟨1, _⟩ => exact (lhs_v_1 _ _).trans hk)
  have er : dot_S256x2048_S512x2048_S256x512_1_1_0_0_n_n.rhsIdx (ix2 p q) ((ValueIdx.contrEquiv1 dot_S256x2048_S512x2048_S256x512_1_1_0_0_n_n 2048 rfl rfl).symm k) = ix2 q k := funext fun a => Fin.ext (by
    match a with
    | ⟨0, _⟩ => exact rhs_v_0 _ _
    | ⟨1, _⟩ => exact (rhs_v_1 _ _).trans hk)
  rw [el, er]

/-! ## The normalisation at an entry

A row of 512 projected values is 4 heads of 128 lanes; each head's lanes are divided by the larger of the square root
of their sum of squares and the floor. -/

/-- A column of a 512-wide row is lane (column mod 128) of key/value head (column / 128). -/
theorem col_split (q : Fin 512) : colK (kvOfCol q) (laneOf q) = q :=
  Fin.ext (by show q.val / 128 * 128 + q.val % 128 = q.val; omega)

/-- A row of 512 viewed as 4 heads of 128 lanes: entry (p, g, d) is column g * 128 + d of row p. -/
theorem split_apply (y : FVec Ideal S256x512 .f32) (p : Fin 256) (g : Fin 4) (d : Fin 128) :
    shapeCast S256x4x128 y shapeCasts_S256x512_S256x4x128 (ix3 p g d) = y (ix2 p (colK g d)) :=
  shapeCast_apply y shapeCasts_S256x512_S256x4x128 (ix3 p g d) (ix2 p (colK g d)) (by
    rw [Shape.rowMajor_val_two, Shape.rowMajor_val_three]
    show p.val * 512 + (g.val * 128 + d.val) = (p.val * 4 + g.val) * 128 + d.val
    omega)

/-- The normalised values at lane d of head g of row p: the projected value there over the floored L2 norm of the head's
    128 projected values in that row. -/
theorem pay3_apply (x : FVec Ideal S256x2048 .bf16) (w : Vec Ideal S512x2048 .bf16) (p : Fin 256) (g : Fin 4) (d : Fin 128) :
    k0_pay3 (F := Ideal) x w (ix2 p (colK g d))
      = Ideal.div (k0_pay1 (F := Ideal) x w (ix2 p (colK g d))) (l2den fun d' => k0_pay1 (F := Ideal) x w (ix2 p (colK g d'))) := by
  unfold k0_pay3
  generalize k0_pay1 (F := Ideal) x w = y
  -- back from (row, head, lane) to (row, column)
  refine (shapeCast_apply _ shapeCasts_S256x4x128_S256x512 (ix2 p (colK g d)) (ix3 p g d) (by
    rw [Shape.rowMajor_val_two, Shape.rowMajor_val_three]
    show (p.val * 4 + g.val) * 128 + d.val = p.val * 512 + (g.val * 128 + d.val)
    omega)).trans ?_
  rw [divf_apply, split_apply]
  refine congrArg (Ideal.div (y (ix2 p (colK g d)))) ?_
  -- the denominator is one number per (row, head), repeated along the lanes
  refine (broadcastTo_apply _ broadcasts_S256x4x1_S256x4x128 (ix3 p g d) (ix3 p g (0 : Fin 1)) (fun a => by
    match a with
    | ⟨0, _⟩ => rfl
    | ⟨1, _⟩ => rfl
    | ⟨2, _⟩ => rfl)).trans ?_
  rw [maximumf_apply]
  unfold l2den
  show max (Ideal.sqrt (shapeCast S256x4x1 _ shapeCasts_S256x4_S256x4x1 (ix3 p g (0 : Fin 1)))) epsN = _
  refine congrArg (fun s => max (Ideal.sqrt s) epsN) ?_
  refine (shapeCast_apply _ shapeCasts_S256x4_S256x4x1 (ix3 p g (0 : Fin 1)) (ix2 p g) (by
    rw [Shape.rowMajor_val_two, Shape.rowMajor_val_three]
    show p.val * 4 + g.val = (p.val * 4 + g.val) * 1 + 0
    omega)).trans ?_
  -- the sum of squares over the head's 128 lanes
  refine (Ideal.multiReduction_add_single _ _ reduces_S256x4x128_S256x4 _ _ (ix2 p g)).trans ?_
  show ∑ k : Fin 128, _ = _
  refine Finset.sum_congr rfl fun k _ => ?_
  have e : reduces_S256x4x128_S256x4.lift (ix2 p g) k = ix3 p g k := funext fun a => Fin.ext (by
    match a with
    | ⟨0, _⟩ => rfl
    | ⟨1, _⟩ => rfl
    | ⟨2, _⟩ => rfl)
  rw [mulf_apply, e, split_apply]

/-! ## One grid point: the stored blocks are the outputs of the block of rows -/

/-- The input block passes through its change of format unchanged. -/
theorem pay4_apply (x0 : Vec Ideal S256x2048 .f32) (i : S256x2048.Idx) : k0_pay4 (F := Ideal) x0 i = x0 i := by
  unfold k0_pay4
  rw [shapeCast_self]
  rfl

/-- The projection of a block of 256 rows is the linear layer of those rows. -/
theorem proj_apply (x0 : Vec Ideal S256x2048 .f32) (w : Vec Ideal S512x2048 .bf16) (p : Fin 256) (q : Fin 512) :
    k0_pay1 (F := Ideal) (k0_pay4 (F := Ideal) x0) w (ix2 p q) = mm (R := 256) (O := 512) x0 w p q := by
  rw [pay1_apply]
  unfold mm
  exact Finset.sum_congr rfl fun k _ => by rw [pay4_apply]

/-- What a point stores as values: the projected rows of its block. -/
theorem pay2_eq (x0 : Vec Ideal S256x2048 .f32) (w : Vec Ideal S512x2048 .bf16) :
    k0_pay2 (F := Ideal) (k0_pay4 (F := Ideal) x0) w = vArr (R := 256) x0 w := by
  funext j
  obtain ⟨p, q, rfl⟩ : ∃ (p : Fin 256) (q : Fin 512), j = ix2 p q :=
    ⟨⟨(j 0).val, (j 0).isLt⟩, ⟨(j 1).val, (j 1).isLt⟩, by funext a; match a with | ⟨0, _⟩ => rfl | ⟨1, _⟩ => rfl⟩
  unfold k0_pay2
  rw [truncf_apply, proj_apply]
  rfl

/-- What a point stores as normalised values: each head's 128 lanes of the projected rows over their floored norm. -/
theorem pay3_eq (x0 : Vec Ideal S256x2048 .f32) (w : Vec Ideal S512x2048 .bf16) :
    k0_pay3 (F := Ideal) (k0_pay4 (F := Ideal) x0) w = vnArr (R := 256) x0 w := by
  funext j
  obtain ⟨p, q, rfl⟩ : ∃ (p : Fin 256) (q : Fin 512), j = ix2 p q :=
    ⟨⟨(j 0).val, (j 0).isLt⟩, ⟨(j 1).val, (j 1).isLt⟩, by funext a; match a with | ⟨0, _⟩ => rfl | ⟨1, _⟩ => rfl⟩
  show _ = vnAt (R := 256) x0 w p q
  unfold vnAt
  rw [← col_split q, pay3_apply, proj_apply]
  rw [col_split q]
  refine congrArg (Ideal.div _) (congrArg l2den (funext fun d' => ?_))
  rw [proj_apply]

/-! ## Rows: a block of rows of the input gives that block of rows of the outputs -/

/-- A linear layer's entry reads one row of each operand. -/
theorem mm_congr {R R' : Nat} (X : Mat R 2048) (X' : Mat R' 2048) (W W' : Mat 512 2048) (n : Fin R) (n' : Fin R')
    (hx : ∀ k : Fin 2048, X (ix2 n k) = X' (ix2 n' k)) (hw : ∀ (o : Fin 512) (k : Fin 2048), W (ix2 o k) = W' (ix2 o k))
    (o : Fin 512) : mm X W n o = mm X' W' n' o := by
  unfold mm
  exact Finset.sum_congr rfl fun k _ => by rw [hx, hw]

theorem vAt_congr {R R' : Nat} (X : Mat R 2048) (X' : Mat R' 2048) (W W' : Mat 512 2048) (n : Fin R) (n' : Fin R')
    (hx : ∀ k : Fin 2048, X (ix2 n k) = X' (ix2 n' k)) (hw : ∀ (o : Fin 512) (k : Fin 2048), W (ix2 o k) = W' (ix2 o k))
    (o o' : Fin 512) (ho : o.val = o'.val) : vAt X W n o = vAt X' W' n' o' := by
  obtain rfl : o = o' := Fin.ext ho
  exact mm_congr X X' W W' n n' hx hw o

theorem vnAt_congr {R R' : Nat} (X : Mat R 2048) (X' : Mat R' 2048) (W W' : Mat 512 2048) (n : Fin R) (n' : Fin R')
    (hx : ∀ k : Fin 2048, X (ix2 n k) = X' (ix2 n' k)) (hw : ∀ (o : Fin 512) (k : Fin 2048), W (ix2 o k) = W' (ix2 o k))
    (o o' : Fin 512) (ho : o.val = o'.val) : vnAt X W n o = vnAt X' W' n' o' := by
  obtain rfl : o = o' := Fin.ext ho
  unfold vnAt
  rw [mm_congr X X' W W' n n' hx hw o]
  exact congrArg (Ideal.div _) (congrArg l2den (funext fun d => mm_congr X X' W W' n n' hx hw _))

/-! ## From the 16 blocks to the arrays

Point t reads rows 256 t … 256 t + 255 of the input and the whole weight matrix, and writes the same rows of both
outputs; every row belongs to exactly the point row / 256. -/

theorem zero_offsets : (![0, 0] : Fin 2 → Nat) = fun _ => 0 := funext fun a => by fin_cases a <;> rfl

/-- Where the blocks sit: at point t the input rows and both value outputs are block t of their rows, all columns; the
    weights are whole. -/
theorem block_indices : ∀ t : Fin cfg0.N,
    win0_0.index t (0 : Fin 2) = t.val ∧ win0_0.index t (1 : Fin 2) = 0
    ∧ win0_3.index t (0 : Fin 2) = 0 ∧ win0_3.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- What point t writes back to the value array is block t of the whole array's function. -/
theorem v_flushed (c : Dev nD) (t : Fin cfg0.N) :
    (dat0 (F := Ideal) V c).flushed 6 t
      = ((cfg0.win 6).blk t).view.read (Elt Ideal) (vArr (R := 4096) (V c main_v0) (V c main_v3)) := by
  show (cfg0.win 6).cut (grid0.coords t) ((dat0 (F := Ideal) V c).after 6 t) = _
  rw [after0_6]
  unfold out0_6
  rw [View.canon_unit_zero zero_offsets]
  simp only [View.ld_unit_zero (S := S256x2048) zero_offsets, View.ld_unit_zero (S := S512x2048) zero_offsets]
  rw [pay2_eq]
  funext y
  obtain ⟨e00, e01, e30, e31, e60, e61, e70, e71⟩ := block_indices t
  refine vAt_congr _ _ _ _ _ _ (fun k => ?_) (fun o k => ?_) _ _ ?_
  · show V c main_v0 (((cfg0.win 0).blk t).view.emb _) = _
    refine congrArg (V c main_v0) (funext fun a => Fin.ext ?_)
    match a with
    | ⟨0, _⟩ => show win0_0.index t (0 : Fin 2) * 256 + 1 * (y 0).val = win0_6.index t (0 : Fin 2) * 256 + 1 * (y 0).val; omega
    | ⟨1, _⟩ => show win0_0.index t (1 : Fin 2) * 2048 + 1 * k.val = k.val; omega
  · show V c main_v3 (((cfg0.win 3).blk t).view.emb _) = _
    refine congrArg (V c main_v3) (funext fun a => Fin.ext ?_)
    match a with
    | ⟨0, _⟩ => show win0_3.index t (0 : Fin 2) * 512 + 1 * o.val = o.val; omega
    | ⟨1, _⟩ => show win0_3.index t (1 : Fin 2) * 2048 + 1 * k.val = k.val; omega
  · show (y 1).val = win0_6.index t (1 : Fin 2) * 512 + 1 * (y 1).val
    omega

/-- An index of the value array is in point t's block iff each coordinate is in the block's range on its axis. -/
theorem v_mem_blk (t : Fin cfg0.N) (i : S4096x512.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v5_2).slice (win0_6.rect t)).set ↔ _
  rw [View.set_slice_whole, Rect.mem_set_unit]
  exact Iff.rfl

/-- Row r of the value array is written by point r / 256. -/
theorem v_cover (i : S4096x512.Idx) :
    ∃ t : Fin cfg0.N, (cfg0.win 6).flush t = true ∧ i ∈ ((cfg0.win 6).blk t).view.set := by
  have hi0 : (i 0).val < 4096 := (i 0).isLt
  have hi1 : (i 1).val < 512 := (i 1).isLt
  have hlt : (i 0).val / 256 < cfg0.N := by show (i 0).val / 256 < 16; omega
  obtain ⟨-, -, -, -, e60, e61, -, -⟩ := block_indices ⟨(i 0).val / 256, hlt⟩
  have e60' : win0_6.index ⟨(i 0).val / 256, hlt⟩ (0 : Fin 2) = (i 0).val / 256 := e60
  refine ⟨⟨(i 0).val / 256, hlt⟩, flush0_6 _, ?_⟩
  rw [v_mem_blk]
  intro a
  match a with
  | ⟨0, _⟩ =>
    show win0_6.index ⟨(i 0).val / 256, hlt⟩ (0 : Fin 2) * 256 ≤ (i 0).val ∧ (i 0).val < win0_6.index ⟨(i 0).val / 256, hlt⟩ (0 : Fin 2) * 256 + 256
    omega
  | ⟨1, _⟩ =>
    show win0_6.index ⟨(i 0).val / 256, hlt⟩ (1 : Fin 2) * 512 ≤ (i 1).val ∧ (i 1).val < win0_6.index ⟨(i 0).val / 256, hlt⟩ (1 : Fin 2) * 512 + 512
    omega

/-- The value array after the launch. -/
theorem v_final (c : Dev nD) :
    (dat0 (F := Ideal) V c).arrAt 6 cfg0.N = vArr (V c main_v0) (V c main_v3) :=
  (dat0 (F := Ideal) V c).arrAt_eq_of_cover 6 (vArr (R := 4096) (V c main_v0) (V c main_v3)) (fun t _ => v_flushed V c t) v_cover

/-- What point t writes back to the normalised-value array is block t of the whole array's function. -/
theorem vn_flushed (c : Dev nD) (t : Fin cfg0.N) :
    (dat0 (F := Ideal) V c).flushed 7 t
      = ((cfg0.win 7).blk t).view.read (Elt Ideal) (vnArr (R := 4096) (V c main_v0) (V c main_v3)) := by
  show (cfg0.win 7).cut (grid0.coords t) ((dat0 (F := Ideal) V c).after 7 t) = _
  rw [after0_7]
  unfold out0_7
  rw [View.canon_unit_zero zero_offsets]
  simp only [View.ld_unit_zero (S := S256x2048) zero_offsets, View.ld_unit_zero (S := S512x2048) zero_offsets]
  rw [pay3_eq]
  funext y
  obtain ⟨e00, e01, e30, e31, e60, e61, e70, e71⟩ := block_indices t
  refine vnAt_congr _ _ _ _ _ _ (fun k => ?_) (fun o k => ?_) _ _ ?_
  · show V c main_v0 (((cfg0.win 0).blk t).view.emb _) = _
    refine congrArg (V c main_v0) (funext fun a => Fin.ext ?_)
    match a with
    | ⟨0, _⟩ => show win0_0.index t (0 : Fin 2) * 256 + 1 * (y 0).val = win0_7.index t (0 : Fin 2) * 256 + 1 * (y 0).val; omega
    | ⟨1, _⟩ => show win0_0.index t (1 : Fin 2) * 2048 + 1 * k.val = k.val; omega
  · show V c main_v3 (((cfg0.win 3).blk t).view.emb _) = _
    refine congrArg (V c main_v3) (funext fun a => Fin.ext ?_)
    match a with
    | ⟨0, _⟩ => show win0_3.index t (0 : Fin 2) * 512 + 1 * o.val = o.val; omega
    | ⟨1, _⟩ => show win0_3.index t (1 : Fin 2) * 2048 + 1 * k.val = k.val; omega
  · show (y 1).val = win0_7.index t (1 : Fin 2) * 512 + 1 * (y 1).val
    omega

/-- An index of the normalised-value array is in point t's block iff each coordinate is in the block's range on its axis. -/
theorem vn_mem_blk (t : Fin cfg0.N) (i : S4096x512.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v5_3).slice (win0_7.rect t)).set ↔ _
  rw [View.set_slice_whole, Rect.mem_set_unit]
  exact Iff.rfl

/-- Row r of the normalised-value array is written by point r / 256. -/
theorem vn_cover (i : S4096x512.Idx) :
    ∃ t : Fin cfg0.N, (cfg0.win 7).flush t = true ∧ i ∈ ((cfg0.win 7).blk t).view.set := by
  have hi0 : (i 0).val < 4096 := (i 0).isLt
  have hi1 : (i 1).val < 512 := (i 1).isLt
  have hlt : (i 0).val / 256 < cfg0.N := by show (i 0).val / 256 < 16; omega
  obtain ⟨-, -, -, -, -, -, e70, e71⟩ := block_indices ⟨(i 0).val / 256, hlt⟩
  have e70' : win0_7.index ⟨(i 0).val / 256, hlt⟩ (0 : Fin 2) = (i 0).val / 256 := e70
  refine ⟨⟨(i 0).val / 256, hlt⟩, flush0_7 _, ?_⟩
  rw [vn_mem_blk]
  intro a
  match a with
  | ⟨0, _⟩ =>
    show win0_7.index ⟨(i 0).val / 256, hlt⟩ (0 : Fin 2) * 256 ≤ (i 0).val ∧ (i 0).val < win0_7.index ⟨(i 0).val / 256, hlt⟩ (0 : Fin 2) * 256 + 256
    omega
  | ⟨1, _⟩ =>
    show win0_7.index ⟨(i 0).val / 256, hlt⟩ (1 : Fin 2) * 512 ≤ (i 1).val ∧ (i 1).val < win0_7.index ⟨(i 0).val / 256, hlt⟩ (1 : Fin 2) * 512 + 512
    omega

/-- The normalised-value array after the launch. -/
theorem vn_final (c : Dev nD) :
    (dat0 (F := Ideal) V c).arrAt 7 cfg0.N = vnArr (V c main_v0) (V c main_v3) :=
  (dat0 (F := Ideal) V c).arrAt_eq_of_cover 7 (vnArr (R := 4096) (V c main_v0) (V c main_v3)) (fun t _ => vn_flushed V c t) vn_cover

end Cert.Attn.Launch0V

end
-- ==== Proof.Launch1Pay.lean ====
/- One trip of the second launch's body, as arithmetic: the stored 512 x 128 piece is one head's attention of
   the loaded query piece against the point's keys and values, corrected along the queries' normalised values. -/
import proofs.«414553_j38508676776103_3_alg».proof.Proof.Gen.KernelIdeal.Skeleton
import proofs.«414553_j38508676776103_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Attn.Launch1Pay

open Cert.KernelIdeal Cert.KernelIdeal.Gen Cert.Attn
open Idealize.ShloMosaic Idealize.ShloMosaic.ValueIdx

/-! ## The two products, read at an index -/

/-- The score product keeps the query row on the left operand's axis 0 … -/
theorem lhs_sc_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
/-- … and runs the contraction along its axis 1. -/
theorem lhs_sc_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
/-- The key row sits on the right operand's axis 0 … -/
theorem rhs_sc_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
/-- … and the contraction runs along its axis 1 as well. -/
theorem rhs_sc_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- The score of query row `i` against key row `key`: the sum over the 128 lanes of the products. -/
theorem score_apply (q : FVec Ideal S512x128 .bf16) (k : FVec Ideal S2048x128 .bf16) (i : Fin 512) (key : Fin 2048) :
    matmul dot_S512x128_S2048x128_S512x2048_1_1_0_0_n_n none q k (constant S512x2048 .f32 0x00000000#32) (ix2 i key)
      = ∑ d : Fin 128, q (ix2 i d) * k (ix2 key d) := by
  simp only [matmul]
  rw [Ideal.matmul_constant_zero_apply, ← Equiv.sum_comp (ValueIdx.contrEquiv1 dot_S512x128_S2048x128_S512x2048_1_1_0_0_n_n 128 rfl rfl).symm]
  refine Finset.sum_congr rfl fun d _ => ?_
  have hk := ValueIdx.contrEquiv1_symm_val dot_S512x128_S2048x128_S512x2048_1_1_0_0_n_n 128 rfl rfl d
  have el : dot_S512x128_S2048x128_S512x2048_1_1_0_0_n_n.lhsIdx (ix2 i key) ((ValueIdx.contrEquiv1 dot_S512x128_S2048x128_S512x2048_1_1_0_0_n_n 128 rfl rfl).symm d) = ix2 i d := funext fun a => Fin.ext (by
    match a with
    | ⟨0, _⟩ => exact lhs_sc_0 _ _
    | ⟨1, _⟩ => exact (lhs_sc_1 _ _).trans hk)
  have er : dot_S512x128_S2048x128_S512x2048_1_1_0_0_n_n.rhsIdx (ix2 i key) ((ValueIdx.contrEquiv1 dot_S512x128_S2048x128_S512x2048_1_1_0_0_n_n 128 rfl rfl).symm d) = ix2 key d := funext fun a => Fin.ext (by
    match a with
    | ⟨0, _⟩ => exact rhs_sc_0 _ _
    | ⟨1, _⟩ => exact (rhs_sc_1 _ _).trans hk)
  rw [el, er]

/-- The mixing product keeps the query row on the left operand's axis 0 … -/
theorem lhs_mx_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
/-- … and contracts the keys along its axis 1. -/
theorem lhs_mx_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
/-- The keys run along the right operand's axis 0 … -/
theorem rhs_mx_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
/-- … and the lane sits on its axis 1. -/
theorem rhs_mx_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- Lane `d` of the weighted values of query row `i`: the sum over the 2048 keys of weight times value. -/
theorem mix_apply (a : FVec Ideal S512x2048 .bf16) (v : FVec Ideal S2048x128 .bf16) (i : Fin 512) (d : Fin 128) :
    matmul dot_S512x2048_S2048x128_S512x128_1_0_0_1_n_n none a v (constant S512x128 .f32 0x00000000#32) (ix2 i d)
      = ∑ key : Fin 2048, a (ix2 i key) * v (ix2 key d) := by
  simp only [matmul]
  rw [Ideal.matmul_constant_zero_apply, ← Equiv.sum_comp (ValueIdx.contrEquiv1 dot_S512x2048_S2048x128_S512x128_1_0_0_1_n_n 2048 rfl rfl).symm]
  refine Finset.sum_congr rfl fun key _ => ?_
  have hk := ValueIdx.contrEquiv1_symm_val dot_S512x2048_S2048x128_S512x128_1_0_0_1_n_n 2048 rfl rfl key
  have el : dot_S512x2048_S2048x128_S512x128_1_0_0_1_n_n.lhsIdx (ix2 i d) ((ValueIdx.contrEquiv1 dot_S512x2048_S2048x128_S512x128_1_0_0_1_n_n 2048 rfl rfl).symm key) = ix2 i key := funext fun a => Fin.ext (by
    match a with
    | ⟨0, _⟩ => exact lhs_mx_0 _ _
    | ⟨1, _⟩ => exact (lhs_mx_1 _ _).trans hk)
  have er : dot_S512x2048_S2048x128_S512x128_1_0_0_1_n_n.rhsIdx (ix2 i d) ((ValueIdx.contrEquiv1 dot_S512x2048_S2048x128_S512x128_1_0_0_1_n_n 2048 rfl rfl).symm key) = ix2 key d := funext fun a => Fin.ext (by
    match a with
    | ⟨0, _⟩ => exact (rhs_mx_0 _ _).trans hk
    | ⟨1, _⟩ => exact rhs_mx_1 _ _)
  rw [el, er]

/-! ## Row reductions and a row statistic spread back along its row -/

/-- Row `i` of a 512 x 2048 block with `key` put on the reduced axis is the index (i, key). -/
theorem lift_row2048 (h : S512x2048.Reduces [1] S512) (i : Fin 512) (key : Fin 2048) :
    h.lift (ix1 i) key = ix2 i key :=
  funext fun a => Fin.ext (by match a with | ⟨0, _⟩ => rfl | ⟨1, _⟩ => rfl)

/-- Row `i` of a 512 x 128 block with lane `d` put on the reduced axis is the index (i, d). -/
theorem lift_row128 (h : S512x128.Reduces [1] S512) (i : Fin 512) (d : Fin 128) :
    h.lift (ix1 i) d = ix2 i d :=
  funext fun a => Fin.ext (by match a with | ⟨0, _⟩ => rfl | ⟨1, _⟩ => rfl)

/-- The maximum over a row, started from minus infinity, is the largest of the row's 2048 entries. -/
theorem rowmax_apply (s : FVec Ideal S512x2048 .f32) (i : Fin 512) :
    multiReduction .maximumf [1] S512 s 0xFF800000#32 reduces_S512x2048_S512 (.inl rfl) rfl (ix1 i)
      = rowMax (fun key => s (ix2 i key)) := by
  refine (Ideal.multiReduction_maximumf_single s _ reduces_S512x2048_S512 _ _ (ix1 i)).trans ?_
  unfold rowMax
  exact congrArg (fun f : Fin 2048 → EReal => (Finset.univ : Finset (Fin 2048)).fold max ninf f)
    (funext fun key => congrArg s (lift_row2048 _ i key))

/-- The sum over a row of 2048 entries (the accumulator is zero: no leading term). -/
theorem rowsum2048_apply (s : FVec Ideal S512x2048 .f32) (i : Fin 512) :
    multiReduction .add [1] S512 s 0x00000000#32 reduces_S512x2048_S512 (.inl rfl) rfl (ix1 i)
      = ∑ key : Fin 2048, s (ix2 i key) := by
  refine (Ideal.multiReduction_add_single s _ reduces_S512x2048_S512 _ _ (ix1 i)).trans ?_
  exact Finset.sum_congr rfl fun key _ => congrArg s (lift_row2048 _ i key)

/-- The sum over a row of 128 lanes. -/
theorem rowsum128_apply (s : FVec Ideal S512x128 .f32) (i : Fin 512) :
    multiReduction .add [1] S512 s 0x00000000#32 reduces_S512x128_S512 (.inl rfl) rfl (ix1 i)
      = ∑ d : Fin 128, s (ix2 i d) := by
  refine (Ideal.multiReduction_add_single s _ reduces_S512x128_S512 _ _ (ix1 i)).trans ?_
  exact Finset.sum_congr rfl fun d _ => congrArg s (lift_row128 _ i d)

/-- A vector of 512 entries read as a column: entry (i, 0) is entry i. -/
theorem col_apply {α : Type} (x : S512.Idx → α) (h : S512.ShapeCasts S512x1) (i : Fin 512) (u : Fin 1) :
    shapeCast S512x1 x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column spread along `n` columns: entry (i, c) is the column's entry (i, 0). -/
theorem bcast_col_apply {α : Type} {n : ℕ} (v : S512x1.Idx → α) (h : S512x1.Broadcasts ⟨2, ![512, n]⟩) (i : Fin 512) (c : Fin n) :
    broadcastTo ⟨2, ![512, n]⟩ v h (ix2 i c) = v (ix2 i (0 : Fin 1)) := by
  refine broadcastTo_apply v h (ix2 i c) (ix2 i (0 : Fin 1)) fun ax => ?_
  match ax with
  | ⟨0, _⟩ =>
    show i.val = if (512 : ℕ) = 1 then 0 else i.val
    rw [if_neg (by decide)]
  | ⟨1, _⟩ => rfl

/-- A per-row statistic kept as a column and spread along the row: every entry of row `i` is the statistic of row `i`. -/
theorem keep_apply {α : Type} {n : ℕ} (x : S512.Idx → α) (h : S512.ShapeCasts S512x1) (h' : S512x1.Broadcasts ⟨2, ![512, n]⟩)
    (i : Fin 512) (c : Fin n) :
    broadcastTo ⟨2, ![512, n]⟩ (shapeCast S512x1 x h) h' (ix2 i c) = x (ix1 i) :=
  (bcast_col_apply _ h' i c).trans (col_apply x h i 0)

/-! ## The softmax of a block of scores, and the correction along the normalised values -/

/-- Each score less its row's maximum, exponentiated. -/
theorem shifted_apply (s : FVec Ideal S512x2048 .f32) (i : Fin 512) (key : Fin 2048) :
    exp (subf s (broadcastTo S512x2048 (shapeCast S512x1 (multiReduction .maximumf [1] S512 s 0xFF800000#32 reduces_S512x2048_S512 (.inl rfl) rfl) shapeCasts_S512_S512x1) broadcasts_S512x1_S512x2048)) (ix2 i key)
      = Ideal.exp (s (ix2 i key) - rowMax (fun k => s (ix2 i k))) :=
  congrArg (fun m : EReal => Ideal.exp ((s (ix2 i key) : EReal) - m))
    ((keep_apply _ shapeCasts_S512_S512x1 broadcasts_S512x1_S512x2048 i key).trans (rowmax_apply s i))

/-- The weights: the shifted exponentials over their row's sum, unchanged by the narrowing of the format. -/
theorem probs_apply (s : FVec Ideal S512x2048 .f32) (i : Fin 512) (key : Fin 2048) :
    truncf .bf16 (divf
        (exp (subf s (broadcastTo S512x2048 (shapeCast S512x1 (multiReduction .maximumf [1] S512 s 0xFF800000#32 reduces_S512x2048_S512 (.inl rfl) rfl) shapeCasts_S512_S512x1) broadcasts_S512x1_S512x2048)))
        (broadcastTo S512x2048 (shapeCast S512x1 (multiReduction .add [1] S512
          (exp (subf s (broadcastTo S512x2048 (shapeCast S512x1 (multiReduction .maximumf [1] S512 s 0xFF800000#32 reduces_S512x2048_S512 (.inl rfl) rfl) shapeCasts_S512_S512x1) broadcasts_S512x1_S512x2048)))
          0x00000000#32 reduces_S512x2048_S512 (.inl rfl) rfl) shapeCasts_S512_S512x1) broadcasts_S512x1_S512x2048))
      bitsLt_bf16_f32 (ix2 i key)
      = softmax (fun k => s (ix2 i k)) key := by
  have hden := (keep_apply (multiReduction .add [1] S512
      (exp (subf s (broadcastTo S512x2048 (shapeCast S512x1 (multiReduction .maximumf [1] S512 s 0xFF800000#32 reduces_S512x2048_S512 (.inl rfl) rfl) shapeCasts_S512_S512x1) broadcasts_S512x1_S512x2048)))
      0x00000000#32 reduces_S512x2048_S512 (.inl rfl) rfl) shapeCasts_S512_S512x1 broadcasts_S512x1_S512x2048 i key).trans
    ((rowsum2048_apply _ i).trans (Finset.sum_congr rfl fun k' _ => shifted_apply s i k'))
  unfold softmax
  exact (congrArg (fun m : EReal => Ideal.div m _) (shifted_apply s i key)).trans
    (congrArg (fun m : EReal => Ideal.div (Ideal.exp ((s (ix2 i key) : EReal) - rowMax (fun k => s (ix2 i k)))) m) hden)

/-- The correction: a block less, row by row, its component along a second block (the lane sum of the products
    times that second block). -/
theorem corr_apply (y vn : FVec Ideal S512x128 .f32) (i : Fin 512) (d : Fin 128) :
    subf y (mulf (broadcastTo S512x128 (shapeCast S512x1 (multiReduction .add [1] S512 (mulf y vn) 0x00000000#32 reduces_S512x128_S512 (.inl rfl) rfl) shapeCasts_S512_S512x1) broadcasts_S512x1_S512x128) vn) (ix2 i d)
      = y (ix2 i d) - (∑ d' : Fin 128, y (ix2 i d') * vn (ix2 i d')) * vn (ix2 i d) :=
  congrArg (fun m : EReal => (y (ix2 i d) : EReal) - m * vn (ix2 i d))
    ((keep_apply _ shapeCasts_S512_S512x1 broadcasts_S512x1_S512x128 i d).trans (rowsum128_apply (mulf y vn) i))

/-! ## The trip's payload -/

/-- The weighted values the payload forms are the block's mix: scores, softmax over the keys, weights against values. -/
theorem mixV_apply (q : FVec Ideal S512x128 .bf16) (k v : FVec Ideal S2048x128 .bf16) (i : Fin 512) (d : Fin 128) :
    matmul dot_S512x2048_S2048x128_S512x128_1_0_0_1_n_n none
      (truncf .bf16 (divf
        (exp (subf (matmul dot_S512x128_S2048x128_S512x2048_1_1_0_0_n_n none q k (constant S512x2048 .f32 0x00000000#32)) (broadcastTo S512x2048 (shapeCast S512x1 (multiReduction .maximumf [1] S512 (matmul dot_S512x128_S2048x128_S512x2048_1_1_0_0_n_n none q k (constant S512x2048 .f32 0x00000000#32)) 0xFF800000#32 reduces_S512x2048_S512 (.inl rfl) rfl) shapeCasts_S512_S512x1) broadcasts_S512x1_S512x2048)))
        (broadcastTo S512x2048 (shapeCast S512x1 (multiReduction .add [1] S512
          (exp (subf (matmul dot_S512x128_S2048x128_S512x2048_1_1_0_0_n_n none q k (constant S512x2048 .f32 0x00000000#32)) (broadcastTo S512x2048 (shapeCast S512x1 (multiReduction .maximumf [1] S512 (matmul dot_S512x128_S2048x128_S512x2048_1_1_0_0_n_n none q k (constant S512x2048 .f32 0x00000000#32)) 0xFF800000#32 reduces_S512x2048_S512 (.inl rfl) rfl) shapeCasts_S512_S512x1) broadcasts_S512x1_S512x2048)))
          0x00000000#32 reduces_S512x2048_S512 (.inl rfl) rfl) shapeCasts_S512_S512x1) broadcasts_S512x1_S512x2048))
      bitsLt_bf16_f32) v (constant S512x128 .f32 0x00000000#32) (ix2 i d)
      = blkMix q k v i d := by
  refine (mix_apply _ v i d).trans ?_
  unfold blkMix
  refine Finset.sum_congr rfl fun key _ => ?_
  refine congrArg (fun m : EReal => m * v (ix2 key d)) ?_
  refine (probs_apply _ i key).trans ?_
  exact congrArg (fun f : Fin 2048 → EReal => softmax f key) (funext fun k' => score_apply q k i k')

/-- The trip's payload is the block-level attention of its loads: `kb`, `vb` the point's key and value blocks,
    `vnb` its normalised-value block, `qb` the 128 query lanes the trip loads. -/
theorem pay1_eq (kb vb : Vec Ideal S2048x128 .bf16) (vnb : Vec Ideal S512x128 .f32) (qb : Vec Ideal S512x128 .bf16) :
    k1_pay1 (F := Ideal) kb vb vnb qb = attnBlk qb kb vb vnb := by
  funext j
  obtain ⟨i, d, rfl⟩ : ∃ (i : Fin 512) (d : Fin 128), j = ix2 i d :=
    ⟨⟨(j 0).val, (j 0).isLt⟩, ⟨(j 1).val, (j 1).isLt⟩, by funext a; match a with | ⟨0, _⟩ => rfl | ⟨1, _⟩ => rfl⟩
  unfold k1_pay1
  simp only [shapeCast_self]
  refine (corr_apply _ _ i d).trans ?_
  exact congrArg₂ (fun a b : EReal => a - b * vnb (ix2 i d)) (mixV_apply qb kb vb i d)
    (Finset.sum_congr rfl fun d' _ => congrArg (fun m : EReal => m * vnb (ix2 i d')) (mixV_apply qb kb vb i d'))

end Cert.Attn.Launch1Pay

end
-- ==== Proof.Launch1Cover.lean ====
/- The second launch's output array from its 32 grid points: if what every point leaves in the output window's buffer
   is its block of ONE matrix, the array ends holding that matrix — the 32 blocks of 512 x 512 (block row b * 4 + qi,
   block column g) tile the 4096 x 2048 array. -/
import proofs.«414553_j38508676776103_3_alg».proof.Proof.Gen.KernelIdeal.Frame
import proofs.«414553_j38508676776103_3_alg».proof.Proof.Spec
import Idealize.ShloMosaic.Lib.Pipeline.Value
set_option maxRecDepth 16384

noncomputable section

open scoped BigOperators

namespace Cert.Attn.Launch1Cover

open Cert.KernelIdeal Cert.KernelIdeal.Gen Cert.Attn
open Idealize.ShloMosaic Idealize.ShloMosaic.TcCoe Idealize.ShloMosaic.ValueIdx Idealize.SL.Sem
open Idealize.ShloMosaic.Pipeline (Dat Cfg Window)

/-- An index of the 4096 x 2048 array lies in a point's block exactly when, on each axis, its coordinate lies in the
    512 consecutive places that start at 512 times the block's index on that axis. -/
theorem mem_blk (t : Fin cfg1.N) (i : S4096x2048.Idx) :
    i ∈ ((cfg1.win 4).blk t).view.set ↔
      ∀ a : Fin 2, win1_4.index t a * S512x512.size a ≤ (i a).val ∧ (i a).val < win1_4.index t a * S512x512.size a + S512x512.size a := by
  show i ∈ ((View.whole main_v6).slice (win1_4.rect t)).set ↔ _
  rw [View.set_slice_whole, Rect.mem_set_unit]
  exact Iff.rfl

/-- Every one of the 8 x 4 block indices is some grid point's: block row b * 4 + qi runs over 0..7 and block column g
    over 0..3 as (b, g, qi) runs over the grid. -/
theorem idx_onto : ∀ (q0 : Fin 8) (q1 : Fin 4), ∃ t : Fin cfg1.N, win1_4.index t = ![q0.val, q1.val] :=
  (by decide +kernel : ∀ (q0 : Fin 8) (q1 : Fin 4), ∃ t : Fin grid1.N, win1_4.index t = ![q0.val, q1.val])

-- The TensorCore's buffer contents when the launch is entered: a parameter, as in the generated frame.
variable (V : (c : Dev nD) → (b : Ref sig .tc) → Buf (Elt Ideal) ((c : Thread nD τ).loc b))

/-- From the points to the array: `Y` is any matrix whose block at every point is what the point leaves. -/
theorem final_of_points (c : Dev nD) (Y : Mat 4096 2048)
    (hpt : ∀ t : Fin cfg1.N, outsAt1 (F := Ideal) V c t = ((cfg1.win 4).blk t).view.read (Elt Ideal) Y) :
    (dat1 (F := Ideal) V c).arrAt 4 cfg1.N = Y := by
  refine (dat1 (F := Ideal) V c).arrAt_eq_of_cover 4 Y (fun t _ => ?_) (fun i => ?_)
  · -- the window is uncut: what a point writes back is what its body left
    show (cfg1.win 4).cut (grid1.coords t) ((dat1 (F := Ideal) V c).after 4 t) = _
    rw [after1_4]
    exact hpt t
  · -- the point whose block index is (row / 512, column / 512) covers (row, column)
    have hi0 : (i 0).val < 4096 := (i 0).isLt
    have hi1 : (i 1).val < 2048 := (i 1).isLt
    obtain ⟨t, ht⟩ := idx_onto ⟨(i 0).val / 512, by omega⟩ ⟨(i 1).val / 512, by omega⟩
    have q0 : win1_4.index t (0 : Fin 2) = (i 0).val / 512 := congrFun ht 0
    have q1 : win1_4.index t (1 : Fin 2) = (i 1).val / 512 := congrFun ht 1
    refine ⟨t, flush1_4 t, ?_⟩
    rw [mem_blk]
    intro a
    match a with
    | ⟨0, _⟩ =>
      show win1_4.index t (0 : Fin 2) * 512 ≤ (i 0).val ∧ (i 0).val < win1_4.index t (0 : Fin 2) * 512 + 512
      omega
    | ⟨1, _⟩ =>
      show win1_4.index t (1 : Fin 2) * 512 ≤ (i 1).val ∧ (i 1).val < win1_4.index t (1 : Fin 2) * 512 + 512
      omega

end Cert.Attn.Launch1Cover

end
-- ==== Proof.Launch1.lean ====
/- The second launch's output: after its 2 x 4 x 4 grid points, each storing four 512 x 128 pieces (one per query
   head of the point's key/value head), the array holds the corrected attention of the arrays the launch found. -/
import proofs.«414553_j38508676776103_3_alg».proof.Proof.Gen.KernelIdeal.Frame
import proofs.«414553_j38508676776103_3_alg».proof.Proof.Spec
import proofs.«414553_j38508676776103_3_alg».proof.Proof.Launch1Pay
import proofs.«414553_j38508676776103_3_alg».proof.Proof.Launch1Cover
set_option maxRecDepth 16384

noncomputable section

open scoped BigOperators

namespace Cert.Attn.Launch1

open Cert.KernelIdeal Cert.KernelIdeal.Gen Cert.Attn
open Idealize.ShloMosaic Idealize.ShloMosaic.TcCoe Idealize.ShloMosaic.ValueIdx Idealize.SL.Sem
open Idealize.ShloMosaic.Pipeline (Dat Cfg Window)

/-! ## One head of one block of queries is that head of those rows of the arrays -/

/-- A block's scores are the arrays' scores when the block's query lanes are head `h`'s columns of row `n` and its keys
    are the batch's rows at the head's key/value columns. -/
theorem blkScore_eq (Q : Mat 4096 2048) (K : Mat 4096 512) (q : Mat 512 128) (k : Mat 2048 128)
    (i : Fin 512) (n : Fin 4096) (h : Fin 16)
    (hq : ∀ d : Fin 128, q (ix2 i d) = Q (ix2 n (colQ h d)))
    (hk : ∀ (key : Fin 2048) (d : Fin 128), k (ix2 key d) = K (ix2 (rowB (batchOf n) key) (colK (kvOf h) d))) :
    blkScore q k i = scoreK Q K n h := by
  funext key
  unfold blkScore scoreK
  exact Finset.sum_congr rfl fun d _ => by rw [hq d, hk key d]

/-- Likewise the attention-weighted values. -/
theorem blkMix_eq (Q : Mat 4096 2048) (K V : Mat 4096 512) (q : Mat 512 128) (k v : Mat 2048 128)
    (i : Fin 512) (n : Fin 4096) (h : Fin 16)
    (hq : ∀ d : Fin 128, q (ix2 i d) = Q (ix2 n (colQ h d)))
    (hk : ∀ (key : Fin 2048) (d : Fin 128), k (ix2 key d) = K (ix2 (rowB (batchOf n) key) (colK (kvOf h) d)))
    (hv : ∀ (key : Fin 2048) (d : Fin 128), v (ix2 key d) = V (ix2 (rowB (batchOf n) key) (colK (kvOf h) d)))
    (d : Fin 128) : blkMix q k v i d = mixK Q K V n h d := by
  unfold blkMix mixK
  rw [blkScore_eq Q K q k i n h hq hk]
  exact Finset.sum_congr rfl fun key _ => by rw [hv key d]

/-- And the corrected result: entry (i, lane) of the block is entry (n, col) of the array, when the block's rows and
    lanes are the array's as above and the normalised values are row `n`'s. -/
theorem attnBlk_eq (Q : Mat 4096 2048) (K V VN : Mat 4096 512) (q : Mat 512 128) (k v : Mat 2048 128) (vn : Mat 512 128)
    (i : Fin 512) (n : Fin 4096) (col : Fin 2048)
    (hq : ∀ d : Fin 128, q (ix2 i d) = Q (ix2 n (colQ (headOf col) d)))
    (hk : ∀ (key : Fin 2048) (d : Fin 128), k (ix2 key d) = K (ix2 (rowB (batchOf n) key) (colK (kvOf (headOf col)) d)))
    (hv : ∀ (key : Fin 2048) (d : Fin 128), v (ix2 key d) = V (ix2 (rowB (batchOf n) key) (colK (kvOf (headOf col)) d)))
    (hvn : ∀ d : Fin 128, vn (ix2 i d) = VN (ix2 n (colK (kvOf (headOf col)) d))) :
    attnBlk q k v vn (ix2 i (laneOf col)) = attnAt Q K V VN n col := by
  show blkMix q k v i (laneOf col) - (∑ d : Fin 128, blkMix q k v i d * vn (ix2 i d)) * vn (ix2 i (laneOf col)) = _
  unfold attnAt
  rw [blkMix_eq Q K V q k v i n (headOf col) hq hk hv (laneOf col), hvn (laneOf col)]
  congr 2
  exact Finset.sum_congr rfl fun d _ => by rw [blkMix_eq Q K V q k v i n (headOf col) hq hk hv d, hvn d]

variable {F : FTy → Type} [FloatOps F]

/-! ## The body's stores: one piece per trip, and the trips' pieces -/

theorem hz : (![0, 0] : Fin 2 → Nat) = fun _ => 0 := funext fun a => by fin_cases a <;> rfl

/-- Trip `k` stores ONE piece: at columns `128 k …` of the output block, the payload of the point's key, value and
    normalised-value blocks and of the query block's columns `128 k …`. -/
theorem trip_pieces (𝒱 : Variants) (c : Dev nD) (bd : Option 𝒱.V) (i : grid1.Coords) (arg3 : Memref sig .tc .vmem S512x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .f32) (harg6 : arg6.IsWhole) (arg7 : Memref sig .tc .vmem S512x512 .f32) (harg7 : arg7.IsWhole) (v0 : Vec F S2048x128 .bf16) (v2 : Vec F S2048x128 .bf16) (v4 : Vec F S512x128 .f32) (X : BufTy.Contents (Elt F) arg3.view.ty) (k : Fin k1_t1_loop.trips) :
    tripL_k1_t1 (F := F) 𝒱 c bd i arg3 harg3 arg4 harg4 arg5 harg5 arg6 harg6 arg7 harg7 v0 v2 v4 X k
      = [⟨Rect.unit (s := S512x512) (k1_off1 k) S512x128.size (k1_off1_inb k),
          k1_pay1 v0 v2 v4 (View.ld (arg3.view.read (Elt F) X) (Rect.unit (s := S512x512) (k1_off1 k) S512x128.size (k1_off1_inb k)))⟩] := by
  unfold tripL_k1_t1 trip_k1_t1
  rfl

/-- So every piece the trips before `n` store is some trip's piece. -/
theorem pb_mem (𝒱 : Variants) (c : Dev nD) (bd : Option 𝒱.V) (i : grid1.Coords) (arg3 : Memref sig .tc .vmem S512x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .f32) (harg6 : arg6.IsWhole) (arg7 : Memref sig .tc .vmem S512x512 .f32) (harg7 : arg7.IsWhole) (v0 : Vec F S2048x128 .bf16) (v2 : Vec F S2048x128 .bf16) (v4 : Vec F S512x128 .f32) (X : BufTy.Contents (Elt F) arg3.view.ty) :
    ∀ (n : ℕ) (p : View.Piece (Elt F) S512x512 .f32), p ∈ pb_k1_t1 (F := F) 𝒱 c bd i arg3 harg3 arg4 harg4 arg5 harg5 arg6 harg6 arg7 harg7 v0 v2 v4 X n →
      ∃ k : Fin k1_t1_loop.trips, p = ⟨Rect.unit (s := S512x512) (k1_off1 k) S512x128.size (k1_off1_inb k),
          k1_pay1 v0 v2 v4 (View.ld (arg3.view.read (Elt F) X) (Rect.unit (s := S512x512) (k1_off1 k) S512x128.size (k1_off1_inb k)))⟩
  | 0, p, hp => by rw [pb_k1_t1.eq_1] at hp; exact absurd hp List.not_mem_nil
  | n + 1, p, hp => by
    rw [pb_k1_t1.eq_2] at hp
    unfold pb_k1_t1Step at hp
    split at hp
    · rename_i h
      rcases List.mem_append.mp hp with h1 | h2
      · rw [trip_pieces] at h1
        exact ⟨⟨n, h⟩, List.mem_singleton.mp h1⟩
      · exact pb_mem 𝒱 c bd i arg3 harg3 arg4 harg4 arg5 harg5 arg6 harg6 arg7 harg7 v0 v2 v4 X n p h2
    · exact pb_mem 𝒱 c bd i arg3 harg3 arg4 harg4 arg5 harg5 arg6 harg6 arg7 harg7 v0 v2 v4 X n p hp

/-- The body's pieces are the loop's, over the point's whole key, value and normalised-value blocks. -/
theorem run_pieces (c : Dev nD) (i : grid1.Coords) (arg3 : Memref sig .tc .vmem S512x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .f32) (harg6 : arg6.IsWhole) (arg7 : Memref sig .tc .vmem S512x512 .f32) (harg7 : arg7.IsWhole)
    (x0 : Vec F S512x512 .bf16) (x1 : Vec F S2048x128 .bf16) (x2 : Vec F S2048x128 .bf16) (x3 : Vec F S512x128 .f32) :
    (kernelRun1_A c i arg3 harg3 arg4 harg4 arg5 harg5 arg6 harg6 arg7 harg7 x0 x1 x2 x3).1
      = pb_k1_t1 (F := F) Variants.none c none i arg3 harg3 arg4 harg4 arg5 harg5 arg6 harg6 arg7 harg7 x1 x2 x3 (harg3.unread x0) k1_t1_loop.trips := by
  unfold kernelRun1_A
  dsimp only
  simp only [View.readAt_eq_ld, harg4.read_unread, harg5.read_unread, harg6.read_unread,
    View.ld_unit_zero (S := S2048x128) hz, View.ld_unit_zero (S := S512x128) hz]

/-! ## The output block as one function of the four input blocks -/

/-- Columns `128 r … 128 r + 127` of the point's query block, as a block of 128 lanes. -/
def qPiece (x0 : Vec Ideal S512x512 .bf16) (r : ℕ) : Mat 512 128 :=
  fun j => x0 (ix2 (⟨(j 0).val, (j 0).isLt⟩ : Fin 512) (⟨(r % 4) * 128 + (j 1).val, by have := (j 1).isLt; have : (j 1).val < 128 := this; omega⟩ : Fin 512))

/-- The point's output block: entry (i, c) is lane `c % 128` of the block-level attention of query columns
    `128 (c / 128) …` against the point's keys and values. -/
def blkOut (x0 : Vec Ideal S512x512 .bf16) (x1 x2 : Vec Ideal S2048x128 .bf16) (x3 : Vec Ideal S512x128 .f32) : Vec Ideal S512x512 .f32 :=
  fun y => attnBlk (qPiece x0 ((y 1).val / 128)) x1 x2 x3 (ix2 (⟨(y 0).val, (y 0).isLt⟩ : Fin 512) (laneOf (y 1)))

theorem attnBlk_congr {q q' : Mat 512 128} (k v : Mat 2048 128) (vn : Mat 512 128) {x x' : (⟨2, ![512, 128]⟩ : Shape).Idx}
    (hq : q = q') (hx : x = x') : attnBlk q k v vn x = attnBlk q' k v vn x' := by subst hq hx; rfl

/-- Trip `k`'s piece is the output block's function on its rectangle. -/
theorem piece_eq (x0 : Vec Ideal S512x512 .bf16) (x1 x2 : Vec Ideal S2048x128 .bf16) (x3 : Vec Ideal S512x128 .f32)
    (k : Fin k1_t1_loop.trips)
    (x : (Rect.unit (s := S512x512) (k1_off1 k) S512x128.size (k1_off1_inb k)).shape.Idx) :
    k1_pay1 (F := Ideal) x1 x2 x3 (View.ld x0 (Rect.unit (s := S512x512) (k1_off1 k) S512x128.size (k1_off1_inb k))) x
      = blkOut x0 x1 x2 x3 ((Rect.unit (s := S512x512) (k1_off1 k) S512x128.size (k1_off1_inb k)).emb x) := by
  have h0 : k1_off1 k 0 = 0 := congrFun (k1_off1_eq k) 0
  have h1 : k1_off1 k 1 = 128 * k.val := congrFun (k1_off1_eq k) 1
  have hk : k.val < 4 := Nat.lt_of_lt_of_le k.isLt k1_t1_abs.2.1
  have hx0 : (x 0).val < 512 := (x 0).isLt
  have hx1 : (x 1).val < 128 := (x 1).isLt
  have e0 : ((Rect.unit (s := S512x512) (k1_off1 k) S512x128.size (k1_off1_inb k)).emb x 0).val = (x 0).val := by
    show k1_off1 k 0 + 1 * (x 0).val = _; omega
  have e1 : ((Rect.unit (s := S512x512) (k1_off1 k) S512x128.size (k1_off1_inb k)).emb x 1).val = 128 * k.val + (x 1).val := by
    show k1_off1 k 1 + 1 * (x 1).val = _; omega
  refine (congrFun (Launch1Pay.pay1_eq x1 x2 x3 (View.ld x0 (Rect.unit (s := S512x512) (k1_off1 k) S512x128.size (k1_off1_inb k)))) x).trans ?_
  unfold blkOut
  refine attnBlk_congr x1 x2 x3 ?_ ?_
  · funext j
    have hj1 : (j 1).val < 128 := (j 1).isLt
    unfold qPiece
    refine congrArg x0 (funext fun a => Fin.ext ?_)
    match a with
    | ⟨0, _⟩ => show k1_off1 k 0 + 1 * (j 0).val = (j 0).val; omega
    | ⟨1, _⟩ =>
      show k1_off1 k 1 + 1 * (j 1).val = (((Rect.unit (s := S512x512) (k1_off1 k) S512x128.size (k1_off1_inb k)).emb x 1).val / 128) % 4 * 128 + (j 1).val
      rw [e1]; omega
  · funext a
    apply Fin.ext
    match a with
    | ⟨0, _⟩ => exact e0.symm
    | ⟨1, _⟩ =>
      show (x 1).val = ((Rect.unit (s := S512x512) (k1_off1 k) S512x128.size (k1_off1_inb k)).emb x 1).val % 128
      rw [e1]; omega

/-- What the body leaves in the output block, whatever the staging buffers: `blkOut` of the four input blocks. -/
theorem out_block (c : Dev nD) (i : grid1.Coords) (arg3 : Memref sig .tc .vmem S512x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .f32) (harg6 : arg6.IsWhole) (arg7 : Memref sig .tc .vmem S512x512 .f32) (harg7 : arg7.IsWhole)
    (x0 : Vec Ideal S512x512 .bf16) (x1 : Vec Ideal S2048x128 .bf16) (x2 : Vec Ideal S2048x128 .bf16) (x3 : Vec Ideal S512x128 .f32) :
    out1_A_4 (F := Ideal) c i arg3 harg3 arg4 harg4 arg5 harg5 arg6 harg6 arg7 harg7 x0 x1 x2 x3 = blkOut x0 x1 x2 x3 := by
  unfold out1_A_4
  rw [View.read_writes_junk_eq_canon]
  funext y
  refine View.canon_apply_of_pieces (blkOut x0 x1 x2 x3) _ ?_ y
    (cover1_A_4 c i arg3 harg3 arg4 harg4 arg5 harg5 arg6 harg6 arg7 harg7 x0 x1 x2 x3 y)
  intro p hp
  rw [run_pieces] at hp
  obtain ⟨k, rfl⟩ := pb_mem _ c _ i arg3 harg3 arg4 harg4 arg5 harg5 arg6 harg6 arg7 harg7 x1 x2 x3 (harg3.unread x0) _ p hp
  intro x
  dsimp only
  rw [harg3.read_unread]
  exact piece_eq x0 x1 x2 x3 k x

/-! ## From the point's blocks to the arrays -/

/-- The output block of the point at block row `P` (= 4 b + qi) and block column `g` (the key/value head), read in the
    arrays: entry `y` is entry (512 P + y₀, 512 g + y₁) of the arrays' corrected attention, when the four input blocks
    are the arrays' blocks there — the queries' and normalised values' at block row `P`, the keys' and values' the 2048
    rows of batch `P / 4`. -/
theorem blkOut_eq (Q : Mat 4096 2048) (K W VN : Mat 4096 512) (P g : ℕ) (hP : P < 8) (hg : g < 4)
    (x0 : Vec Ideal S512x512 .bf16) (x1 x2 : Vec Ideal S2048x128 .bf16) (x3 : Vec Ideal S512x128 .f32)
    (h0 : ∀ (i cc : Fin 512) (n : Fin 4096) (col : Fin 2048), n.val = P * 512 + i.val → col.val = g * 512 + cc.val →
      x0 (ix2 i cc) = Q (ix2 n col))
    (h1 : ∀ (key : Fin 2048) (d : Fin 128) (n : Fin 4096) (col : Fin 512), n.val = P / 4 * 2048 + key.val → col.val = g * 128 + d.val →
      x1 (ix2 key d) = K (ix2 n col))
    (h2 : ∀ (key : Fin 2048) (d : Fin 128) (n : Fin 4096) (col : Fin 512), n.val = P / 4 * 2048 + key.val → col.val = g * 128 + d.val →
      x2 (ix2 key d) = W (ix2 n col))
    (h3 : ∀ (i : Fin 512) (d : Fin 128) (n : Fin 4096) (col : Fin 512), n.val = P * 512 + i.val → col.val = g * 128 + d.val →
      x3 (ix2 i d) = VN (ix2 n col))
    (y : S512x512.Idx) (n : Fin 4096) (col : Fin 2048) (hn : n.val = P * 512 + (y 0).val) (hcol : col.val = g * 512 + (y 1).val) :
    blkOut x0 x1 x2 x3 y = attnAt Q K W VN n col := by
  have hy0 : (y 0).val < 512 := (y 0).isLt
  have hy1 : (y 1).val < 512 := (y 1).isLt
  have hl : laneOf (y 1) = laneOf col := Fin.ext (by show (y 1).val % 128 = col.val % 128; omega)
  unfold blkOut
  rw [hl]
  refine attnBlk_eq Q K W VN (qPiece x0 ((y 1).val / 128)) x1 x2 x3 ⟨(y 0).val, (y 0).isLt⟩ n col ?_ ?_ ?_ ?_
  · intro d
    have hd : d.val < 128 := d.isLt
    refine h0 _ _ n (colQ (headOf col) d) hn ?_
    show col.val / 128 * 128 + d.val = g * 512 + ((y 1).val / 128 % 4 * 128 + d.val)
    omega
  · intro key d
    refine h1 key d _ _ ?_ ?_
    · show n.val / 2048 * 2048 + key.val = P / 4 * 2048 + key.val; omega
    · show col.val / 128 / 4 * 128 + d.val = g * 128 + d.val; omega
  · intro key d
    refine h2 key d _ _ ?_ ?_
    · show n.val / 2048 * 2048 + key.val = P / 4 * 2048 + key.val; omega
    · show col.val / 128 / 4 * 128 + d.val = g * 128 + d.val; omega
  · intro d
    refine h3 _ d n _ hn ?_
    show col.val / 128 / 4 * 128 + d.val = g * 128 + d.val; omega

/-! ## Every point leaves its block of the arrays' corrected attention -/

-- The TensorCore's buffer contents when the launch is entered: a parameter.
variable (V : (c : Dev nD) → (b : Ref sig .tc) → Buf (Elt Ideal) ((c : Thread nD τ).loc b))

/-- The printed index maps over the 32 points: the queries' and the normalised values' blocks move with the output's
    (block row 4 b + qi, block column g); the keys' and the values' block row is the batch, a quarter of the output's. -/
theorem idx_facts : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) / 4 ∧ win1_1.index t (1 : Fin 2) = win1_4.index t (1 : Fin 2)
    ∧ win1_2.index t (0 : Fin 2) = win1_4.index t (0 : Fin 2) / 4 ∧ win1_2.index t (1 : Fin 2) = win1_4.index t (1 : Fin 2)
    ∧ win1_3.index t (0 : Fin 2) = win1_4.index t (0 : Fin 2) ∧ win1_3.index t (1 : Fin 2) = win1_4.index t (1 : Fin 2)
    ∧ win1_4.index t (0 : Fin 2) < 8 ∧ win1_4.index t (1 : Fin 2) < 4 :=
  (by decide +kernel : ∀ t : Fin grid1.N, _)

/-- What point `t` leaves in the output window's buffer is its block of the corrected attention of the arrays the
    launch found. -/
theorem point_eq (c : Dev nD) (t : Fin cfg1.N) :
    outsAt1 (F := Ideal) V c t
      = ((cfg1.win 4).blk t).view.read (Elt Ideal)
          (attnArr (V c main_v5_0) (V c main_v5_1) (V c main_v5_2) (V c main_v5_3)) := by
  obtain ⟨e00, e01, e10, e11, e20, e21, e30, e31, hP, hg⟩ := idx_facts t
  unfold outsAt1
  rw [out_block]
  funext y
  have hy0 : (y 0).val < 512 := (y 0).isLt
  have hy1 : (y 1).val < 512 := (y 1).isLt
  show blkOut (iblk1 V c 0 t) (iblk1 V c 1 t) (iblk1 V c 2 t) (iblk1 V c 3 t) y
    = attnArr (V c main_v5_0) (V c main_v5_1) (V c main_v5_2) (V c main_v5_3) (((cfg1.win 4).blk t).view.emb y)
  unfold attnArr
  refine blkOut_eq (V c main_v5_0) (V c main_v5_1) (V c main_v5_2) (V c main_v5_3)
    (win1_4.index t (0 : Fin 2)) (win1_4.index t (1 : Fin 2)) hP hg
    (iblk1 V c 0 t) (iblk1 V c 1 t) (iblk1 V c 2 t) (iblk1 V c 3 t) ?_ ?_ ?_ ?_ y _ _ ?_ ?_
  · intro i cc n col hn hcol
    show V c main_v5_0 (((cfg1.win 0).blk t).view.emb (ix2 i cc)) = V c main_v5_0 (ix2 n col)
    refine congrArg (V c main_v5_0) (funext fun a => Fin.ext ?_)
    match a with
    | ⟨0, _⟩ => show win1_0.index t (0 : Fin 2) * 512 + 1 * i.val = n.val; omega
    | ⟨1, _⟩ => show win1_0.index t (1 : Fin 2) * 512 + 1 * cc.val = col.val; omega
  · intro key d n col hn hcol
    show V c main_v5_1 (((cfg1.win 1).blk t).view.emb (ix2 key d)) = V c main_v5_1 (ix2 n col)
    refine congrArg (V c main_v5_1) (funext fun a => Fin.ext ?_)
    match a with
    | ⟨0, _⟩ => show win1_1.index t (0 : Fin 2) * 2048 + 1 * key.val = n.val; omega
    | ⟨1, _⟩ => show win1_1.index t (1 : Fin 2) * 128 + 1 * d.val = col.val; omega
  · intro key d n col hn hcol
    show V c main_v5_2 (((cfg1.win 2).blk t).view.emb (ix2 key d)) = V c main_v5_2 (ix2 n col)
    refine congrArg (V c main_v5_2) (funext fun a => Fin.ext ?_)
    match a with
    | ⟨0, _⟩ => show win1_2.index t (0 : Fin 2) * 2048 + 1 * key.val = n.val; omega
    | ⟨1, _⟩ => show win1_2.index t (1 : Fin 2) * 128 + 1 * d.val = col.val; omega
  · intro i d n col hn hcol
    show V c main_v5_3 (((cfg1.win 3).blk t).view.emb (ix2 i d)) = V c main_v5_3 (ix2 n col)
    refine congrArg (V c main_v5_3) (funext fun a => Fin.ext ?_)
    match a with
    | ⟨0, _⟩ => show win1_3.index t (0 : Fin 2) * 512 + 1 * i.val = n.val; omega
    | ⟨1, _⟩ => show win1_3.index t (1 : Fin 2) * 128 + 1 * d.val = col.val; omega
  · show win1_4.index t (0 : Fin 2) * 512 + 1 * (y 0).val = win1_4.index t (0 : Fin 2) * 512 + (y 0).val; omega
  · show win1_4.index t (1 : Fin 2) * 512 + 1 * (y 1).val = win1_4.index t (1 : Fin 2) * 512 + (y 1).val; omega

/-- The attention array after the launch. -/
theorem y_final (c : Dev nD) :
    (dat1 (F := Ideal) V c).arrAt 4 cfg1.N
      = attnArr (V c main_v5_0) (V c main_v5_1) (V c main_v5_2) (V c main_v5_3) :=
  Launch1Cover.final_of_points V c _ (fun t => point_eq V c t)

end Cert.Attn.Launch1

end
-- ==== Proof.Launch2.lean ====
/- The third launch's output: after its 8 grid points (512 rows each) the array holds the output linear layer
   of the attention array the launch found. -/
import proofs.«414553_j38508676776103_3_alg».proof.Proof.Gen.KernelIdeal.Frame
import proofs.«414553_j38508676776103_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.Attn.Launch2

open Cert.KernelIdeal Cert.KernelIdeal.Gen Cert.Attn
open Idealize.ShloMosaic Idealize.ShloMosaic.TcCoe Idealize.ShloMosaic.ValueIdx Idealize.SL.Sem
open Idealize.ShloMosaic.Pipeline (Dat Cfg Window)

/-! ## One grid point: a block of 512 rows against the whole weight matrix

The product contracts the 2048 channels of both operands: entry (p, q) of the result pairs row p of the left
operand with row q of the right one. -/
/-- Row coordinate of the left operand of the contraction: the output's row. -/
theorem woLhs_row (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
/-- Column coordinate of the left operand: the contracted channel. -/
theorem woLhs_col (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
/-- Row coordinate of the right operand: the output's column. -/
theorem woRhs_row (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
/-- Column coordinate of the right operand: the contracted channel. -/
theorem woRhs_col (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The block's matrix product at an entry: row p of the left block against row q of the weights. -/
theorem woDot_apply (y : FVec Ideal S512x2048 .bf16) (w : FVec Ideal S2048x2048 .bf16) (p : Fin 512) (q : Fin 2048) :
    matmul (F := Ideal) dot_S512x2048_S2048x2048_S512x2048_1_1_0_0_n_n none y w (constant (F := Ideal) S512x2048 .f32 0x00000000#32) (ix2 p q)
      = ∑ k : Fin 2048, y (ix2 p k) * w (ix2 q k) := by
  simp only [matmul]
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p q) ((ValueIdx.contrEquiv1 dot_S512x2048_S2048x2048_S512x2048_1_1_0_0_n_n 2048 rfl rfl).symm k) = ix2 p k := funext fun a => Fin.ext (by
    match a with
    | ⟨0, _⟩ => exact woLhs_row _ _
    | ⟨1, _⟩ => exact (woLhs_col _ _).trans hk)
  have er : dot_S512x2048_S2048x2048_S512x2048_1_1_0_0_n_n.rhsIdx (ix2 p q) ((ValueIdx.contrEquiv1 dot_S512x2048_S2048x2048_S512x2048_1_1_0_0_n_n 2048 rfl rfl).symm k) = ix2 q k := funext fun a => Fin.ext (by
    match a with
    | ⟨0, _⟩ => exact woRhs_row _ _
    | ⟨1, _⟩ => exact (woRhs_col _ _).trans hk)
  rw [el, er]

/-- One grid point's payload is the output linear layer of its block of rows. -/
theorem pay_eq_oArr (y : Vec Ideal S512x2048 .f32) (w : Vec Ideal S2048x2048 .bf16) :
    k2_pay1 (F := Ideal) y w = oArr y w := by
  funext j
  obtain ⟨p, q, rfl⟩ : ∃ (p : Fin 512) (q : Fin 2048), j = ix2 p q :=
    ⟨⟨(j 0).val, (j 0).isLt⟩, ⟨(j 1).val, (j 1).isLt⟩, by funext a; match a with | ⟨0, _⟩ => rfl | ⟨1, _⟩ => rfl⟩
  unfold k2_pay1
  simp only [shapeCast_self]
  refine (woDot_apply _ _ p q).trans ?_
  rfl

/-! ## From the eight blocks to the whole array -/

-- The TensorCore's buffer contents when the launch is entered: a parameter, as in the generated frame.
variable (V : (c : Dev nD) → (b : Ref sig .tc) → Buf (Elt Ideal) ((c : Thread nD τ).loc b))

/-- The origin of a block, coordinate by coordinate. -/
theorem hz : (![0, 0] : Fin 2 → Nat) = fun _ => 0 := funext fun a => by fin_cases a <;> rfl

/-- The index maps at each of the eight grid points: the attention block and the output block sit at block row t,
    block column 0; the weights are a single block. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Row locality: when row p of a block is row r of the whole attention matrix and the weights agree on row q,
    the block's linear layer at (p, q) is the whole's at (r, q). -/
theorem oArr_rows (Y : Mat 4096 2048) (W : Mat 2048 2048) (y : Mat 512 2048) (w : Mat 2048 2048)
    (r : Fin 4096) (p : Fin 512) (q : Fin 2048)
    (hy : ∀ k : Fin 2048, y (ix2 p k) = Y (ix2 r k)) (hw : ∀ k : Fin 2048, w (ix2 q k) = W (ix2 q k)) :
    oArr y w (ix2 p q) = oArr Y W (ix2 r q) := by
  show ∑ k : Fin 2048, y (ix2 p k) * w (ix2 q k) = ∑ k : Fin 2048, Y (ix2 r k) * W (ix2 q k)
  exact Finset.sum_congr rfl fun k _ => by rw [hy k, hw k]

/-- What grid point t writes back is block t of the output linear layer of the whole arrays: row p of the block
    is row t * 512 + p of the attention matrix, and the weights are read whole. -/
theorem flushed_eq (c : Dev nD) (t : Fin cfg2.N) :
    (dat2 (F := Ideal) V c).flushed 2 t = ((cfg2.win 2).blk t).view.read (Elt Ideal) (oArr (V c main_v6) (V c main_v4)) := by
  show (cfg2.win 2).cut (grid2.coords t) ((dat2 (F := Ideal) V c).after 2 t) = _
  rw [after2_2]
  unfold out2_2
  rw [View.canon_unit_zero hz]
  simp only [View.ld_unit_zero (S := S512x2048) hz, View.ld_unit_zero (S := S2048x2048) hz]
  rw [pay_eq_oArr]
  funext j
  obtain ⟨e0, e1, e2, e3, e4, e5⟩ := idx_facts t
  have hj0 : (j 0).val < 512 := (j 0).isLt
  have hj1 : (j 1).val < 2048 := (j 1).isLt
  have ht : t.val < 8 := t.isLt
  show oArr (iblk2 V c 0 t) (iblk2 V c 1 t) (ix2 (⟨(j 0).val, hj0⟩ : Fin 512) (⟨(j 1).val, hj1⟩ : Fin 2048))
    = oArr (V c main_v6) (V c main_v4) (((cfg2.win 2).blk t).view.emb j)
  have hemb : ((cfg2.win 2).blk t).view.emb j
      = ix2 (⟨t.val * 512 + (j 0).val, by omega⟩ : Fin 4096) (⟨(j 1).val, hj1⟩ : Fin 2048) := by
    funext a; apply Fin.ext
    match a with
    | ⟨0, _⟩ => show win2_2.index t (0 : Fin 2) * 512 + 1 * (j 0).val = t.val * 512 + (j 0).val; omega
    | ⟨1, _⟩ => show win2_2.index t (1 : Fin 2) * 2048 + 1 * (j 1).val = (j 1).val; omega
  rw [hemb]
  refine oArr_rows _ _ _ _ _ _ _ (fun k => ?_) (fun k => ?_)
  · show V c main_v6 (((cfg2.win 0).blk t).view.emb (ix2 (⟨(j 0).val, hj0⟩ : Fin 512) k))
      = V c main_v6 (ix2 (⟨t.val * 512 + (j 0).val, by omega⟩ : Fin 4096) k)
    refine congrArg _ ?_
    funext a; apply Fin.ext
    match a with
    | ⟨0, _⟩ => show win2_0.index t (0 : Fin 2) * 512 + 1 * (j 0).val = t.val * 512 + (j 0).val; omega
    | ⟨1, _⟩ => show win2_0.index t (1 : Fin 2) * 2048 + 1 * k.val = k.val; omega
  · show V c main_v4 (((cfg2.win 1).blk t).view.emb (ix2 (⟨(j 1).val, hj1⟩ : Fin 2048) k))
      = V c main_v4 (ix2 (⟨(j 1).val, hj1⟩ : Fin 2048) k)
    refine congrArg _ ?_
    funext a; apply Fin.ext
    match a with
    | ⟨0, _⟩ => show win2_1.index t (0 : Fin 2) * 2048 + 1 * (j 1).val = (j 1).val; omega
    | ⟨1, _⟩ => show win2_1.index t (1 : Fin 2) * 2048 + 1 * k.val = k.val; omega

/-- An index of the output array is in grid point t's block iff each coordinate is in the block's range. -/
theorem mem_blk (t : Fin cfg2.N) (i : S4096x2048.Idx) :
    i ∈ ((cfg2.win 2).blk t).view.set ↔ ∀ a : Fin 2, win2_2.index t a * S512x2048.size a ≤ (i a).val ∧ (i a).val < win2_2.index t a * S512x2048.size a + S512x2048.size a := by
  show i ∈ ((View.whole main_v7).slice (win2_2.rect t)).set ↔ _
  rw [View.set_slice_whole, Rect.mem_set_unit]
  exact Iff.rfl

/-- The eight blocks of 512 rows fill the 4096 rows: row r lies in the block of grid point r / 512. -/
theorem cover (i : S4096x2048.Idx) :
    ∃ t : Fin cfg2.N, (cfg2.win 2).flush t = true ∧ i ∈ ((cfg2.win 2).blk t).view.set := by
  have hi0 : (i 0).val < 4096 := (i 0).isLt
  have hi1 : (i 1).val < 2048 := (i 1).isLt
  have hT : (i 0).val / 512 < 8 := by omega
  obtain ⟨e0, e1, e2, e3, e4, e5⟩ := idx_facts (⟨(i 0).val / 512, hT⟩ : Fin cfg2.N)
  have e4' : win2_2.index (⟨(i 0).val / 512, hT⟩ : Fin cfg2.N) (0 : Fin 2) = (i 0).val / 512 := e4
  refine ⟨⟨(i 0).val / 512, hT⟩, flush2_2 _, ?_⟩
  rw [mem_blk]
  intro a
  match a with
  | ⟨0, _⟩ =>
    show win2_2.index (⟨(i 0).val / 512, hT⟩ : Fin cfg2.N) (0 : Fin 2) * 512 ≤ (i 0).val
      ∧ (i 0).val < win2_2.index (⟨(i 0).val / 512, hT⟩ : Fin cfg2.N) (0 : Fin 2) * 512 + 512
    omega
  | ⟨1, _⟩ =>
    show win2_2.index (⟨(i 0).val / 512, hT⟩ : Fin cfg2.N) (1 : Fin 2) * 2048 ≤ (i 1).val
      ∧ (i 1).val < win2_2.index (⟨(i 0).val / 512, hT⟩ : Fin cfg2.N) (1 : Fin 2) * 2048 + 2048
    omega

/-- The output array after the launch. -/
theorem o_final (c : Dev nD) :
    (dat2 (F := Ideal) V c).arrAt 2 cfg2.N = oArr (V c main_v6) (V c main_v4) := by
  exact (dat2 (F := Ideal) V c).arrAt_eq_of_cover 2 (oArr (V c main_v6) (V c main_v4)) (fun t _ => flushed_eq V c t) cover

end Cert.Attn.Launch2

end
-- ==== Proof.KernelValue.lean ====
/- The idealized kernel's result as ONE function of its five arguments.
   The run's buffer contents are followed from the launch to the return: the first stretch of host operations
   flattens the input to 4096 rows and changes the weights' format (the identity on the extended reals); the first
   launch leaves the scaled normalised queries, the normalised keys, the values and the normalised values; the second
   the corrected attention; the third the output linear layer; the last host operation unflattens the rows. Each
   launch's arrays are read off its write-backs (one module per launch), every other buffer is as the launch found
   it. The composition is `Cert.Attn.kernelOut` of the arguments. -/
import proofs.«414553_j38508676776103_3_alg».proof.Proof.KernelRun
import proofs.«414553_j38508676776103_3_alg».proof.Proof.Launch0QK
import proofs.«414553_j38508676776103_3_alg».proof.Proof.Launch0V
import proofs.«414553_j38508676776103_3_alg».proof.Proof.Launch1
import proofs.«414553_j38508676776103_3_alg».proof.Proof.Launch2
import Idealize.ShloMosaic.Lib.StableHlo.Run
import Idealize.ShloMosaic.Lib.Pipeline.Value
import Idealize.ShloMosaic.Lib.ValueIdx

set_option maxRecDepth 16384

noncomputable section

namespace Cert.Attn.KernelValue

open Cert.KernelIdeal Cert.KernelIdeal.Gen Cert.Attn
open Idealize.ShloMosaic Idealize.ShloMosaic.TcCoe Idealize.ShloMosaic.ValueIdx Idealize.SL.Sem Idealize.ShloMosaic.StableHlo

/-! ## The two reshapes, as functions -/

/-- Flattening [2, 2048, 2048] to [4096, 2048]: row `r` is position `r % 2048` of batch `r / 2048`. -/
theorem reshape_flat (x : Ten3 2 2048 2048) (h : S2x2048x2048.ShapeCasts S4096x2048) :
    shapeCast S4096x2048 x h = flat x := by
  funext i
  refine (shapeCast_apply x h i
    (ix3 (batchOf ⟨(i 0).val, (i 0).isLt⟩) (posOf ⟨(i 0).val, (i 0).isLt⟩) (⟨(i 1).val, (i 1).isLt⟩ : Fin 2048)) ?_).trans rfl
  rw [Shape.rowMajor_val_three, Shape.rowMajor_val_two]
  show ((i 0).val / 2048 * 2048 + (i 0).val % 2048) * 2048 + (i 1).val = (i 0).val * 2048 + (i 1).val
  have := Nat.div_add_mod (i 0).val 2048
  omega

/-- Unflattening [4096, 2048] to [2, 2048, 2048]: index (b, n, o) reads row b * 2048 + n, column o. -/
theorem reshape_unflat (Y : Mat 4096 2048) (h : S4096x2048.ShapeCasts S2x2048x2048) (i : S2x2048x2048.Idx) :
    shapeCast S2x2048x2048 Y h i
      = Y (ix2 (rowB ⟨(i 0).val, (i 0).isLt⟩ ⟨(i 1).val, (i 1).isLt⟩) (⟨(i 2).val, (i 2).isLt⟩ : Fin 2048)) := by
  refine shapeCast_apply Y h i _ ?_
  rw [Shape.rowMajor_val_three, Shape.rowMajor_val_two]
  rfl

variable (m : (ℓ : Loc nD τ sig) → Buf (Elt Ideal) ℓ) (ρ : Dev nD → PrngReg)

/-! ## Before the first launch: the input flattened, the weights unchanged -/

/-- Row `r` of the flattened input is position `r % 2048` of batch `r / 2048`. -/
theorem entry_x (c : Dev nD) : V1 (F := Ideal) m ρ c main_v0 = flat (m ((c : Thread nD τ).loc main_arg0)) := by
  show StableHlo.after hostOps0 (W0 m ρ c) (Proc.devRef .tc main_v0) = _
  after_results
  exact reshape_flat (m ((c : Thread nD τ).loc main_arg0)) shapeCasts_S2x2048x2048_S4096x2048

/-- A change of float format is the identity on the extended reals. -/
theorem entry_wq (c : Dev nD) : V1 (F := Ideal) m ρ c main_v1 = m ((c : Thread nD τ).loc main_arg1) := by
  show StableHlo.after hostOps0 (W0 m ρ c) (Proc.devRef .tc main_v1) = _
  after_results
  rfl
theorem entry_wk (c : Dev nD) : V1 (F := Ideal) m ρ c main_v2 = m ((c : Thread nD τ).loc main_arg2) := by
  show StableHlo.after hostOps0 (W0 m ρ c) (Proc.devRef .tc main_v2) = _
  after_results
  rfl
theorem entry_wv (c : Dev nD) : V1 (F := Ideal) m ρ c main_v3 = m ((c : Thread nD τ).loc main_arg3) := by
  show StableHlo.after hostOps0 (W0 m ρ c) (Proc.devRef .tc main_v3) = _
  after_results
  rfl
theorem entry_wo (c : Dev nD) : V1 (F := Ideal) m ρ c main_v4 = m ((c : Thread nD τ).loc main_arg4) := by
  show StableHlo.after hostOps0 (W0 m ρ c) (Proc.devRef .tc main_v4) = _
  after_results
  rfl

/-! ## After the first launch -/

theorem after0_q (c : Dev nD) : V2 (F := Ideal) m ρ c main_v5_0
    = qArr (flat (m ((c : Thread nD τ).loc main_arg0))) (m ((c : Thread nD τ).loc main_arg1)) :=
  (W2_arr m ρ c 4).trans ((Launch0QK.q_final (V1 m ρ) c).trans (by rw [entry_x, entry_wq]))
theorem after0_k (c : Dev nD) : V2 (F := Ideal) m ρ c main_v5_1
    = kArr (flat (m ((c : Thread nD τ).loc main_arg0))) (m ((c : Thread nD τ).loc main_arg2)) :=
  (W2_arr m ρ c 5).trans ((Launch0QK.k_final (V1 m ρ) c).trans (by rw [entry_x, entry_wk]))
theorem after0_v (c : Dev nD) : V2 (F := Ideal) m ρ c main_v5_2
    = vArr (flat (m ((c : Thread nD τ).loc main_arg0))) (m ((c : Thread nD τ).loc main_arg3)) :=
  (W2_arr m ρ c 6).trans ((Launch0V.v_final (V1 m ρ) c).trans (by rw [entry_x, entry_wv]))
theorem after0_vn (c : Dev nD) : V2 (F := Ideal) m ρ c main_v5_3
    = vnArr (flat (m ((c : Thread nD τ).loc main_arg0))) (m ((c : Thread nD τ).loc main_arg3)) :=
  (W2_arr m ρ c 7).trans ((Launch0V.vn_final (V1 m ρ) c).trans (by rw [entry_x, entry_wv]))
/-- The output weights are none of the first launch's arrays. -/
theorem after0_wo (c : Dev nD) : V2 (F := Ideal) m ρ c main_v4 = m ((c : Thread nD τ).loc main_arg4) :=
  (W2_of_ne m ρ c main_v4 (by decide)).trans (entry_wo m ρ c)

/-! ## After the second launch -/

theorem after1_y (c : Dev nD) : V3 (F := Ideal) m ρ c main_v6
    = attnArr (qArr (flat (m ((c : Thread nD τ).loc main_arg0))) (m ((c : Thread nD τ).loc main_arg1)))
        (kArr (flat (m ((c : Thread nD τ).loc main_arg0))) (m ((c : Thread nD τ).loc main_arg2)))
        (vArr (flat (m ((c : Thread nD τ).loc main_arg0))) (m ((c : Thread nD τ).loc main_arg3)))
        (vnArr (flat (m ((c : Thread nD τ).loc main_arg0))) (m ((c : Thread nD τ).loc main_arg3))) :=
  (W3_arr m ρ c 4).trans ((Launch1.y_final (V2 m ρ) c).trans (by rw [after0_q, after0_k, after0_v, after0_vn]))
/-- Nor of the second's. -/
theorem after1_wo (c : Dev nD) : V3 (F := Ideal) m ρ c main_v4 = m ((c : Thread nD τ).loc main_arg4) :=
  (W3_of_ne m ρ c main_v4 (by decide)).trans (after0_wo m ρ c)

/-! ## After the third launch, and the return -/

theorem after2_o (c : Dev nD) : V4 (F := Ideal) m ρ c main_v7
    = oArr (attnArr (qArr (flat (m ((c : Thread nD τ).loc main_arg0))) (m ((c : Thread nD τ).loc main_arg1)))
        (kArr (flat (m ((c : Thread nD τ).loc main_arg0))) (m ((c : Thread nD τ).loc main_arg2)))
        (vArr (flat (m ((c : Thread nD τ).loc main_arg0))) (m ((c : Thread nD τ).loc main_arg3)))
        (vnArr (flat (m ((c : Thread nD τ).loc main_arg0))) (m ((c : Thread nD τ).loc main_arg3))))
      (m ((c : Thread nD τ).loc main_arg4)) :=
  (W4_arr m ρ c 2).trans ((Launch2.o_final (V3 m ρ) c).trans (by rw [after1_y, after1_wo]))

/-- THE RESULT: the rows unflattened, index (b, n, o) reads row b * 2048 + n, column o. -/
theorem result_eq (c : Dev nD) : W5 (F := Ideal) m ρ c (Proc.devRef .tc main_v8)
    = kernelOut (m ((c : Thread nD τ).loc main_arg0)) (m ((c : Thread nD τ).loc main_arg1))
        (m ((c : Thread nD τ).loc main_arg2)) (m ((c : Thread nD τ).loc main_arg3)) (m ((c : Thread nD τ).loc main_arg4)) := by
  show StableHlo.after hostOps3 (W4 m ρ c) (Proc.devRef .tc main_v8) = _
  after_results
  funext i
  exact (reshape_unflat (V4 (F := Ideal) m ρ c main_v7) shapeCasts_S4096x2048_S2x2048x2048 i).trans
    (congrFun (after2_o m ρ c) _)

/-! ## The run, read -/

/-- Every weakly fair execution of the idealized kernel ends with the result buffer at `kernelOut` of the
    arguments and the arguments as launched. -/
theorem run : θ_run defs (onTc (τ := τ) (main (F := Ideal))) ⟨m, fun _ => 0, ρ⟩ (fun r => ∀ c : Dev nD,
      r.2.mem ((c.tc : Thread nD τ).loc main_v8)
        = kernelOut (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩)
    (Cert.KernelIdeal.RunNamed.run_named (F := Ideal) m ρ)

end Cert.Attn.KernelValue

end
-- ==== Proof.Bridge.lean ====
/- The kernel's reading and the reference's reading of the attention are one function of the five arguments.
   The one place where the two differ as formulas is the score scale: the kernel multiplies every query lane by
   c before the sum over lanes, the reference multiplies the sum. On the extended reals a product distributes
   over a sum when the factor is a non-negative real, whatever the summands (they may be infinite), and c is
   one; commutativity and associativity of the product do the rest. Everything else is the arithmetic of rows and
   columns: row b * 2048 + n, column h * 128 + d, key/value head h / 4. -/
import proofs.«414553_j38508676776103_3_alg».proof.Proof.Spec

noncomputable section

open scoped BigOperators

namespace Cert.Attn

open Idealize.ShloMosaic Idealize.ShloMosaic.ValueIdx

/-! ## Rows and columns -/

/-- Row b * 2048 + n lies in batch b. -/
theorem batchOf_rowB (b : Fin 2) (n : Fin 2048) : batchOf (rowB b n) = b := by
  apply Fin.ext; have := n.isLt; simp only [batchOf, rowB]; omega
/-- Row b * 2048 + n is position n. -/
theorem posOf_rowB (b : Fin 2) (n : Fin 2048) : posOf (rowB b n) = n := by
  apply Fin.ext; have := n.isLt; simp only [posOf, rowB]; omega
/-- Column h * 128 + d belongs to head h. -/
theorem headOf_colQ (h : Fin 16) (d : Fin 128) : headOf (colQ h d) = h := by
  apply Fin.ext; have := d.isLt; simp only [headOf, colQ]; omega
/-- Column h * 128 + d is lane d. -/
theorem laneOf_colQ (h : Fin 16) (d : Fin 128) : laneOf (colQ h d) = d := by
  apply Fin.ext; have := d.isLt; simp only [laneOf, colQ]; omega
/-- Column g * 128 + d belongs to key/value head g. -/
theorem kvOfCol_colK (g : Fin 4) (d : Fin 128) : kvOfCol (colK g d) = g := by
  apply Fin.ext; have := d.isLt; simp only [kvOfCol, colK]; omega
/-- A column is the column of its head and its lane. -/
theorem colQ_headOf_laneOf (c : Fin 2048) : colQ (headOf c) (laneOf c) = c := by
  apply Fin.ext; simp only [colQ, headOf, laneOf]; omega

/-! ## The score scale: a non-negative real, so it distributes over any sum -/

/-- The scale is the real 11863283 * 2^-27. -/
theorem scl_eq_coe : scl = (((11863283 : ℝ) * (2 : ℝ) ^ (-27 : Int) : ℝ) : EReal) := by
  simp [scl, Ideal.ofBits, Ideal.ieee, -EReal.coe_mul]

theorem scl_nonneg : 0 ≤ scl := by
  rw [scl_eq_coe]; exact EReal.coe_nonneg.mpr (by positivity)

theorem scl_ne_top : scl ≠ ⊤ := by
  rw [scl_eq_coe]; exact EReal.coe_ne_top _

/-- A non-negative finite factor may be taken out of a finite sum of extended reals, with no condition on the summands. -/
theorem mul_sum_of_nonneg_of_ne_top {c : EReal} (h0 : 0 ≤ c) (ht : c ≠ ⊤) (s : Finset (Fin 128)) (f : Fin 128 → EReal) :
    ∑ i ∈ s, c * f i = c * ∑ i ∈ s, f i := by
  classical
  induction s using Finset.induction_on with
  | empty => simp
  | insert a s ha ih =>
    rw [Finset.sum_insert ha, Finset.sum_insert ha, ih, EReal.left_distrib_of_nonneg_of_ne_top h0 ht]

/-- Scaling every first factor of a sum of products scales the sum. -/
theorem sum_scaled (a e : Fin 128 → EReal) :
    ∑ d : Fin 128, (a d * scl) * e d = (∑ d : Fin 128, a d * e d) * scl := by
  have h : ∀ d : Fin 128, (a d * scl) * e d = scl * (a d * e d) := fun d => by
    rw [mul_comm (a d) scl, mul_assoc]
  rw [Finset.sum_congr rfl (fun d _ => h d), mul_sum_of_nonneg_of_ne_top scl_nonneg scl_ne_top, mul_comm]

/-! ## The flattened input and the first launch -/

/-- Row b * 2048 + n of the flattened input is position n of batch b. -/
theorem flat_apply (x : Ten3 2 2048 2048) (b : Fin 2) (n c : Fin 2048) :
    flat x (ix2 (rowB b n) c) = x (ix3 b n c) := by
  show x (ix3 (batchOf (rowB b n)) (posOf (rowB b n)) c) = _
  rw [batchOf_rowB, posOf_rowB]

/-- A linear layer of the flattened input is that layer of the rank-3 input. -/
theorem mm_flat {O : Nat} (x : Ten3 2 2048 2048) (w : Mat O 2048) (b : Fin 2) (n : Fin 2048) (o : Fin O) :
    mm (flat x) w (rowB b n) o = proj x w b n o := by
  unfold mm proj
  exact Finset.sum_congr rfl (fun c _ => by rw [flat_apply])

/-- The first launch's queries are the normalised queries times the scale. -/
theorem qArr_flat (x : Ten3 2 2048 2048) (wq : Mat 2048 2048) (b : Fin 2) (h : Fin 16) (n : Fin 2048) (d : Fin 128) :
    qArr (flat x) wq (ix2 (rowB b n) (colQ h d)) = qn x wq b h n d * scl := by
  show qAt (flat x) wq (rowB b n) (colQ h d) = _
  unfold qAt qn
  rw [headOf_colQ]
  simp only [mm_flat]

/-- The first launch's keys are the normalised keys. -/
theorem kArr_flat (x : Ten3 2 2048 2048) (wk : Mat 512 2048) (b : Fin 2) (g : Fin 4) (n : Fin 2048) (d : Fin 128) :
    kArr (flat x) wk (ix2 (rowB b n) (colK g d)) = kn x wk b g n d := by
  show kAt (flat x) wk (rowB b n) (colK g d) = _
  unfold kAt kn
  rw [kvOfCol_colK]
  simp only [mm_flat]

/-- The first launch's values are the values. -/
theorem vArr_flat (x : Ten3 2 2048 2048) (wv : Mat 512 2048) (b : Fin 2) (g : Fin 4) (n : Fin 2048) (d : Fin 128) :
    vArr (flat x) wv (ix2 (rowB b n) (colK g d)) = vh x wv b g n d := by
  show vAt (flat x) wv (rowB b n) (colK g d) = _
  unfold vAt vh
  rw [mm_flat]

/-- The first launch's normalised values are the normalised values. -/
theorem vnArr_flat (x : Ten3 2 2048 2048) (wv : Mat 512 2048) (b : Fin 2) (g : Fin 4) (n : Fin 2048) (d : Fin 128) :
    vnArr (flat x) wv (ix2 (rowB b n) (colK g d)) = vn x wv b g n d := by
  show vnAt (flat x) wv (rowB b n) (colK g d) = _
  unfold vnAt vn vh
  rw [kvOfCol_colK]
  simp only [mm_flat]

/-! ## The second launch -/

/-- The kernel's scores, with the scale inside the queries, are the reference's scaled scores. -/
theorem scoreK_flat (x : Ten3 2 2048 2048) (wq : Mat 2048 2048) (wk : Mat 512 2048) (b : Fin 2) (h : Fin 16) (q k : Fin 2048) :
    scoreK (qArr (flat x) wq) (kArr (flat x) wk) (rowB b q) h k = score x wq wk b h q k := by
  unfold scoreK score
  rw [batchOf_rowB]
  rw [Finset.sum_congr rfl (fun d _ => by rw [qArr_flat, kArr_flat])]
  exact sum_scaled (fun d => qn x wq b h q d) (fun d => kn x wk b (kvOf h) k d)

/-- The attention-weighted values agree. -/
theorem mixK_flat (x : Ten3 2 2048 2048) (wq : Mat 2048 2048) (wk wv : Mat 512 2048) (b : Fin 2) (h : Fin 16) (q : Fin 2048) (d : Fin 128) :
    mixK (qArr (flat x) wq) (kArr (flat x) wk) (vArr (flat x) wv) (rowB b q) h d = mix x wq wk wv b h q d := by
  have hs : scoreK (qArr (flat x) wq) (kArr (flat x) wk) (rowB b q) h = score x wq wk b h q :=
    funext (fun k => scoreK_flat x wq wk b h q k)
  unfold mixK mix
  rw [batchOf_rowB, hs]
  exact Finset.sum_congr rfl (fun k _ => by rw [vArr_flat])

/-- The corrected attention output at column h * 128 + d. -/
theorem attnAt_flat (x : Ten3 2 2048 2048) (wq : Mat 2048 2048) (wk wv : Mat 512 2048) (b : Fin 2) (h : Fin 16) (q : Fin 2048) (d : Fin 128) :
    attnAt (qArr (flat x) wq) (kArr (flat x) wk) (vArr (flat x) wv) (vnArr (flat x) wv) (rowB b q) (colQ h d)
      = yh x wq wk wv b h q d := by
  unfold attnAt yh
  rw [headOf_colQ, laneOf_colQ]
  simp only [mixK_flat, vnArr_flat]

/-- The second launch's output at any column, read through the column's head and lane. -/
theorem attnArr_flat (x : Ten3 2 2048 2048) (wq : Mat 2048 2048) (wk wv : Mat 512 2048) (b : Fin 2) (q c : Fin 2048) :
    attnArr (qArr (flat x) wq) (kArr (flat x) wk) (vArr (flat x) wv) (vnArr (flat x) wv) (ix2 (rowB b q) c)
      = yh x wq wk wv b (headOf c) q (laneOf c) := by
  have h := attnAt_flat x wq wk wv b (headOf c) q (laneOf c)
  rw [colQ_headOf_laneOf] at h
  exact h

/-! ## The third launch and the whole -/

/-- The three launches composed compute the reference's function. -/
theorem kernelOut_eq_G (x : Ten3 2 2048 2048) (wq : Mat 2048 2048) (wk wv : Mat 512 2048) (wo : Mat 2048 2048) :
    kernelOut x wq wk wv wo = G x wq wk wv wo := by
  funext i
  obtain ⟨b, n, o, rfl⟩ : ∃ (b : Fin 2) (n o : Fin 2048), i = ix3 b n o :=
    ⟨⟨(i 0).val, (i 0).isLt⟩, ⟨(i 1).val, (i 1).isLt⟩, ⟨(i 2).val, (i 2).isLt⟩, by
      funext a; match a with | ⟨0, _⟩ => rfl | ⟨1, _⟩ => rfl | ⟨2, _⟩ => rfl⟩
  show mm (attnArr (qArr (flat x) wq) (kArr (flat x) wk) (vArr (flat x) wv) (vnArr (flat x) wv)) wo (rowB b n) o
      = outAt x wq wk wv wo b n o
  unfold mm outAt
  exact Finset.sum_congr rfl (fun c _ => by rw [attnArr_flat])

end Cert.Attn

end
-- ==== Proof.RefImports.lean ====
/- The reference program's run and its stage-by-stage reading, brought into scope for the modules that
   read the reference's result at an index. -/
import proofs.«414553_j38508676776103_3_alg».proof.Proof.Gen.ReferenceIdeal.Run
import proofs.«414553_j38508676776103_3_alg».proof.Proof.Gen.ReferenceIdeal.Read
-- ==== Proof.RefStages.lean ====
/- The reference's stages up to the scaled scores, read at coordinates (batch, head, position, lane): the
   normalised queries, the keys and values repeated over the four query heads of a key/value head, the scores. -/
import proofs.«414553_j38508676776103_3_alg».proof.Proof.RefImports
import proofs.«414553_j38508676776103_3_alg».proof.Proof.Spec

set_option maxRecDepth 16384

noncomputable section

open scoped BigOperators

namespace Cert.Attn.RefStages

open Cert.ReferenceIdeal Cert.ReferenceIdeal.Read Cert.Attn
open Idealize.ShloMosaic Idealize.ShloMosaic.ValueIdx

variable (x0 : (⟨S2x2048x2048, .f32⟩ : BufTy).Contents (Elt Ideal)) (x1 : (⟨S2048x2048, .f32⟩ : BufTy).Contents (Elt Ideal))
  (x2 x3 : (⟨S512x2048, .f32⟩ : BufTy).Contents (Elt Ideal))

/-- A linear layer of the input, read at (batch, position, output channel). -/
theorem v0_at (b : Fin 2) (n : Fin 2048) (o : Fin 2048) :
    val_main_v0 (F := Ideal) x0 x1 (ix3 b n o) = proj x0 x1 b n o := by
  rw [val_main_v0_apply]
  unfold proj
  refine Finset.sum_congr rfl fun k _ => ?_
  have el : lidx_main_v0 (ix3 b n o) k = ix3 b n k :=
    funext fun a => Fin.ext (by match a with | ⟨0, _⟩ => rfl | ⟨1, _⟩ => rfl | ⟨2, _⟩ => rfl)
  have er : ridx_main_v0 (ix3 b n o) k = ix2 o k :=
    funext fun a => Fin.ext (by match a with | ⟨0, _⟩ => rfl | ⟨1, _⟩ => rfl)
  rw [el, er]

/-- Split into heads and transposed: lane d of head h is channel h * 128 + d. -/
theorem v2_at (b : Fin 2) (h : Fin 16) (n : Fin 2048) (d : Fin 128) :
    val_main_v2 (F := Ideal) x0 x1 (ix4 b h n d) = proj x0 x1 b n (colQ h d) := by
  rw [val_main_v2_apply, val_main_v1_apply]
  have e : idx_main_v1 (idx_main_v2 (ix4 b h n d)) = ix3 b n (colQ h d) := by
    have hb := b.isLt; have hh := h.isLt; have hn := n.isLt; have hd := d.isLt
    funext a
    match a with
    | ⟨0, _⟩ => exact Fin.ext (by show (((b.val * 2048 + n.val) * 16 + h.val) * 128 + d.val) / 4194304 = b.val; omega)
    | ⟨1, _⟩ => exact Fin.ext (by show (((b.val * 2048 + n.val) * 16 + h.val) * 128 + d.val) / 2048 % 2048 = n.val; omega)
    | ⟨2, _⟩ => exact Fin.ext (by show (((b.val * 2048 + n.val) * 16 + h.val) * 128 + d.val) % 2048 = h.val * 128 + d.val; omega)
  rw [e, v0_at]

/-- The sum of squares over a head's lanes. -/
theorem v10_at (b : Fin 2) (h : Fin 16) (n : Fin 2048) :
    val_main_v10 (F := Ideal) x0 x1 (ix3 b h n)
      = ∑ d : Fin 128, proj x0 x1 b n (colQ h d) * proj x0 x1 b n (colQ h d) := by
  rw [val_main_v10_apply, val_main_cst_apply, Ideal.ofBits_def, Ideal.ofBits_zero_f32, zero_add]
  refine Finset.sum_congr rfl fun k _ => ?_
  have e : idx_main_v10 (ix3 b h n) k = ix4 b h n k :=
    funext fun a => Fin.ext (by match a with | ⟨0, _⟩ => rfl | ⟨1, _⟩ => rfl | ⟨2, _⟩ => rfl | ⟨3, _⟩ => rfl)
  rw [e, val_main_v9_apply, v2_at, Ideal.mulf_def]

/-- The normalising factor of a head: one over the root of the mean square plus epsilon. -/
theorem v16_at (b : Fin 2) (h : Fin 16) (n : Fin 2048) (z : Fin 1) :
    val_main_v16 (F := Ideal) x0 x1 (ix4 b h n z) = rmsInv (fun d' => proj x0 x1 b n (colQ h d')) := by
  rw [val_main_v16_apply, val_main_v15_apply, val_main_v13_apply, val_main_v11_apply, val_main_v12_apply,
    val_main_v14_apply, val_main_cst_0_apply, val_main_cst_1_apply]
  have e : idx_main_v11 (ix4 b h n z) = ix3 b h n :=
    funext fun a => Fin.ext (by match a with | ⟨0, _⟩ => rfl | ⟨1, _⟩ => rfl | ⟨2, _⟩ => rfl)
  rw [e, v10_at]
  rfl

/-- The normalised queries. -/
theorem v18_at (b : Fin 2) (h : Fin 16) (n : Fin 2048) (d : Fin 128) :
    val_main_v18 (F := Ideal) x0 x1 (ix4 b h n d) = qn x0 x1 b h n d := by
  rw [val_main_v18_apply, val_main_v17_apply, v2_at]
  have e : idx_main_v17 (ix4 b h n d) = ix4 b h n (⟨0, Nat.one_pos⟩ : Fin 1) :=
    funext fun a => Fin.ext (by match a with | ⟨0, _⟩ => rfl | ⟨1, _⟩ => rfl | ⟨2, _⟩ => rfl | ⟨3, _⟩ => rfl)
  rw [e, v16_at]
  rfl

/-- The key projection, read at (batch, position, output channel). -/
theorem v3_at (b : Fin 2) (n : Fin 2048) (o : Fin 512) :
    val_main_v3 (F := Ideal) x0 x2 (ix3 b n o) = proj x0 x2 b n o := by
  rw [val_main_v3_apply]
  unfold proj
  refine Finset.sum_congr rfl fun k _ => ?_
  have el : lidx_main_v3 (ix3 b n o) k = ix3 b n k :=
    funext fun a => Fin.ext (by match a with | ⟨0, _⟩ => rfl | ⟨1, _⟩ => rfl | ⟨2, _⟩ => rfl)
  have er : ridx_main_v3 (ix3 b n o) k = ix2 o k :=
    funext fun a => Fin.ext (by match a with | ⟨0, _⟩ => rfl | ⟨1, _⟩ => rfl)
  rw [el, er]

/-- Keys split into key/value heads and transposed: lane d of head g is channel g * 128 + d. -/
theorem v5_at (b : Fin 2) (g : Fin 4) (n : Fin 2048) (d : Fin 128) :
    val_main_v5 (F := Ideal) x0 x2 (ix4 b g n d) = proj x0 x2 b n (colK g d) := by
  rw [val_main_v5_apply, val_main_v4_apply]
  have e : idx_main_v4 (idx_main_v5 (ix4 b g n d)) = ix3 b n (colK g d) := by
    have hb := b.isLt; have hg := g.isLt; have hn := n.isLt; have hd := d.isLt
    funext a
    match a with
    | ⟨0, _⟩ => exact Fin.ext (by show (((b.val * 2048 + n.val) * 4 + g.val) * 128 + d.val) / 1048576 = b.val; omega)
    | ⟨1, _⟩ => exact Fin.ext (by show (((b.val * 2048 + n.val) * 4 + g.val) * 128 + d.val) / 512 % 2048 = n.val; omega)
    | ⟨2, _⟩ => exact Fin.ext (by show (((b.val * 2048 + n.val) * 4 + g.val) * 128 + d.val) % 512 = g.val * 128 + d.val; omega)
  rw [e, v3_at]

/-- The sum of squares over a key head's lanes. -/
theorem v20_at (b : Fin 2) (g : Fin 4) (n : Fin 2048) :
    val_main_v20 (F := Ideal) x0 x2 (ix3 b g n)
      = ∑ d : Fin 128, proj x0 x2 b n (colK g d) * proj x0 x2 b n (colK g d) := by
  rw [val_main_v20_apply, val_main_cst_2_apply, Ideal.ofBits_def, Ideal.ofBits_zero_f32, zero_add]
  refine Finset.sum_congr rfl fun k _ => ?_
  have e : idx_main_v20 (ix3 b g n) k = ix4 b g n k :=
    funext fun a => Fin.ext (by match a with | ⟨0, _⟩ => rfl | ⟨1, _⟩ => rfl | ⟨2, _⟩ => rfl | ⟨3, _⟩ => rfl)
  rw [e, val_main_v19_apply, v5_at, Ideal.mulf_def]

/-- The normalising factor of a key head. -/
theorem v26_at (b : Fin 2) (g : Fin 4) (n : Fin 2048) (z : Fin 1) :
    val_main_v26 (F := Ideal) x0 x2 (ix4 b g n z) = rmsInv (fun d' => proj x0 x2 b n (colK g d')) := by
  rw [val_main_v26_apply, val_main_v25_apply, val_main_v23_apply, val_main_v21_apply, val_main_v22_apply,
    val_main_v24_apply, val_main_cst_3_apply, val_main_cst_4_apply]
  have e : idx_main_v21 (ix4 b g n z) = ix3 b g n :=
    funext fun a => Fin.ext (by match a with | ⟨0, _⟩ => rfl | ⟨1, _⟩ => rfl | ⟨2, _⟩ => rfl)
  rw [e, v20_at]
  rfl

/-- The normalised keys, per key/value head. -/
theorem v28_at (b : Fin 2) (g : Fin 4) (n : Fin 2048) (d : Fin 128) :
    val_main_v28 (F := Ideal) x0 x2 (ix4 b g n d) = kn x0 x2 b g n d := by
  rw [val_main_v28_apply, val_main_v27_apply, v5_at]
  have e : idx_main_v27 (ix4 b g n d) = ix4 b g n (⟨0, Nat.one_pos⟩ : Fin 1) :=
    funext fun a => Fin.ext (by match a with | ⟨0, _⟩ => rfl | ⟨1, _⟩ => rfl | ⟨2, _⟩ => rfl | ⟨3, _⟩ => rfl)
  rw [e, v26_at]
  rfl

/-- Repeating each key/value head four times and merging the two head axes: head h reads head h / 4. -/
theorem repeat_idx (b : Fin 2) (h : Fin 16) (n : Fin 2048) (d : Fin 128) :
    idx_main_v29 (idx_main_v30 (ix4 b h n d)) = ix4 b (kvOf h) n d := by
  have hb := b.isLt; have hh := h.isLt; have hn := n.isLt; have hd := d.isLt
  funext a
  match a with
  | ⟨0, _⟩ => exact Fin.ext (by show (((b.val * 16 + h.val) * 2048 + n.val) * 128 + d.val) / 4194304 = b.val; omega)
  | ⟨1, _⟩ => exact Fin.ext (by show (((b.val * 16 + h.val) * 2048 + n.val) * 128 + d.val) / 1048576 % 4 = h.val / 4; omega)
  | ⟨2, _⟩ => exact Fin.ext (by show (((b.val * 16 + h.val) * 2048 + n.val) * 128 + d.val) / 128 % 2048 = n.val; omega)
  | ⟨3, _⟩ => exact Fin.ext (by show (((b.val * 16 + h.val) * 2048 + n.val) * 128 + d.val) % 128 = d.val; omega)

/-- The normalised keys, repeated: query head `h` reads key/value head `h / 4`. -/
theorem v30_at (b : Fin 2) (h : Fin 16) (n : Fin 2048) (d : Fin 128) :
    val_main_v30 (F := Ideal) x0 x2 (ix4 b h n d) = kn x0 x2 b (kvOf h) n d := by
  rw [val_main_v30_apply, val_main_v29_apply, repeat_idx, v28_at]

/-- The value projection, read at (batch, position, output channel). -/
theorem v6_at (b : Fin 2) (n : Fin 2048) (o : Fin 512) :
    val_main_v6 (F := Ideal) x0 x3 (ix3 b n o) = proj x0 x3 b n o := by
  rw [val_main_v6_apply]
  unfold proj
  refine Finset.sum_congr rfl fun k _ => ?_
  have el : lidx_main_v6 (ix3 b n o) k = ix3 b n k :=
    funext fun a => Fin.ext (by match a with | ⟨0, _⟩ => rfl | ⟨1, _⟩ => rfl | ⟨2, _⟩ => rfl)
  have er : ridx_main_v6 (ix3 b n o) k = ix2 o k :=
    funext fun a => Fin.ext (by match a with | ⟨0, _⟩ => rfl | ⟨1, _⟩ => rfl)
  rw [el, er]

/-- Values split into key/value heads and transposed. -/
theorem v8_at (b : Fin 2) (g : Fin 4) (n : Fin 2048) (d : Fin 128) :
    val_main_v8 (F := Ideal) x0 x3 (ix4 b g n d) = vh x0 x3 b g n d := by
  rw [val_main_v8_apply, val_main_v7_apply]
  have e : idx_main_v7 (idx_main_v8 (ix4 b g n d)) = ix3 b n (colK g d) := by
    have hb := b.isLt; have hg := g.isLt; have hn := n.isLt; have hd := d.isLt
    funext a
    match a with
    | ⟨0, _⟩ => exact Fin.ext (by show (((b.val * 2048 + n.val) * 4 + g.val) * 128 + d.val) / 1048576 = b.val; omega)
    | ⟨1, _⟩ => exact Fin.ext (by show (((b.val * 2048 + n.val) * 4 + g.val) * 128 + d.val) / 512 % 2048 = n.val; omega)
    | ⟨2, _⟩ => exact Fin.ext (by show (((b.val * 2048 + n.val) * 4 + g.val) * 128 + d.val) % 512 = g.val * 128 + d.val; omega)
  rw [e, v6_at]
  rfl

/-- The values, repeated likewise. -/
theorem v32_at (b : Fin 2) (h : Fin 16) (n : Fin 2048) (d : Fin 128) :
    val_main_v32 (F := Ideal) x0 x3 (ix4 b h n d) = vh x0 x3 b (kvOf h) n d := by
  rw [val_main_v32_apply, val_main_v31_apply]
  have e : idx_main_v31 (idx_main_v32 (ix4 b h n d)) = ix4 b (kvOf h) n d := repeat_idx b h n d
  rw [e, v8_at]

/-- The scaled scores. -/
theorem v35_at (b : Fin 2) (h : Fin 16) (q k : Fin 2048) :
    val_main_v35 (F := Ideal) x0 x1 x2 (ix4 b h q k) = score x0 x1 x2 b h q k := by
  rw [val_main_v35_apply, val_main_v34_apply, val_main_cst_5_apply, val_main_v33_apply, Ideal.mulf_def,
    Ideal.ofBits_def]
  unfold score
  congr 1
  refine Finset.sum_congr rfl fun d _ => ?_
  have el : lidx_main_v33 (ix4 b h q k) d = ix4 b h q d :=
    funext fun a => Fin.ext (by match a with | ⟨0, _⟩ => rfl | ⟨1, _⟩ => rfl | ⟨2, _⟩ => rfl | ⟨3, _⟩ => rfl)
  have er : ridx_main_v33 (ix4 b h q k) d = ix4 b h k d :=
    funext fun a => Fin.ext (by match a with | ⟨0, _⟩ => rfl | ⟨1, _⟩ => rfl | ⟨2, _⟩ => rfl | ⟨3, _⟩ => rfl)
  rw [el, er, v18_at, v30_at]

end Cert.Attn.RefStages

end
-- ==== Proof.RefValue.lean ====
/- The reference's result is the common function `G` of the five arguments: from the scaled scores on, the
   softmax over the keys, the attention-weighted values, the correction along the normalised value at the query's
   position, the heads laid side by side, and the output linear layer. -/
import proofs.«414553_j38508676776103_3_alg».proof.Proof.RefStages

set_option maxRecDepth 16384

noncomputable section

open scoped BigOperators

namespace Cert.Attn.RefValue

open Cert.ReferenceIdeal Cert.ReferenceIdeal.Read Cert.Attn Cert.Attn.RefStages
open Idealize.ShloMosaic Idealize.ShloMosaic.ValueIdx

variable (x0 : (⟨S2x2048x2048, .f32⟩ : BufTy).Contents (Elt Ideal)) (x1 : (⟨S2048x2048, .f32⟩ : BufTy).Contents (Elt Ideal))
  (x2 x3 : (⟨S512x2048, .f32⟩ : BufTy).Contents (Elt Ideal)) (x4 : (⟨S2048x2048, .f32⟩ : BufTy).Contents (Elt Ideal))

/-- The reduced index (batch, head, query) with key `k` put back is (batch, head, query, key). -/
theorem lift_key (hr : S2x16x2048x2048.Reduces [3] S2x16x2048) (b : Fin 2) (h : Fin 16) (q : Fin 2048)
    (k : Fin (S2x16x2048x2048.size 3)) :
    hr.lift (ix3 b h q) k = ix4 b h q (⟨k.val, k.isLt⟩ : Fin 2048) := by
  funext c; apply Fin.ext
  match c with
  | ⟨0, _⟩ => rfl
  | ⟨1, _⟩ => rfl
  | ⟨2, _⟩ => rfl
  | ⟨3, _⟩ => rfl

/-- The largest score of a query's row, from minus infinity. -/
theorem v36_at (b : Fin 2) (h : Fin 16) (q : Fin 2048) :
    val_main_v36 (F := Ideal) x0 x1 x2 (ix3 b h q) = rowMax (score x0 x1 x2 b h q) := by
  unfold val_main_v36
  have hr : S2x16x2048x2048.Reduces [3] S2x16x2048 := by decide
  rw [Host.reduce_eq_fold_single FloatOps.maximumf _ _ Gen.reducesTo_S2x16x2048x2048_S2x16x2048_d3 hr Gen.h_S_]
  have hf : (val_main_v35 (F := Ideal) x0 x1 x2 ∘ hr.lift (ix3 b h q)) = fun k : Fin 2048 => score x0 x1 x2 b h q k :=
    funext fun k => by
      show val_main_v35 (F := Ideal) x0 x1 x2 (hr.lift (ix3 b h q) k) = _
      rw [lift_key hr b h q k]; exact v35_at x0 x1 x2 b h q _
  exact congrArg (fun f => Finset.fold max ninf f (Finset.univ : Finset (Fin 2048))) hf

/-- Clamping the row's largest score below by minus infinity changes nothing. -/
theorem v38_at (b : Fin 2) (h : Fin 16) (q : Fin 2048) :
    val_main_v38 (F := Ideal) x0 x1 x2 (ix3 b h q) = rowMax (score x0 x1 x2 b h q) := by
  rw [val_main_v38_apply, v36_at, val_main_v37_apply, val_main_cst_7_apply]
  show max ninf (rowMax (score x0 x1 x2 b h q)) = _
  exact max_eq_right ((Finset.le_fold_max _).mpr (Or.inl le_rfl))

/-- The row's largest score, kept as a unit axis and spread back over the keys. -/
theorem v40_at (b : Fin 2) (h : Fin 16) (q k : Fin 2048) :
    val_main_v40 (F := Ideal) x0 x1 x2 (ix4 b h q k) = rowMax (score x0 x1 x2 b h q) := by
  rw [val_main_v40_apply, val_main_v39_apply]
  have e : idx_main_v39 (idx_main_v40 (ix4 b h q k)) = ix3 b h q :=
    funext fun a => Fin.ext (by match a with | ⟨0, _⟩ => rfl | ⟨1, _⟩ => rfl | ⟨2, _⟩ => rfl)
  rw [e, v38_at]

/-- The exponential of a score less its row's largest. -/
theorem v42_at (b : Fin 2) (h : Fin 16) (q k : Fin 2048) :
    val_main_v42 (F := Ideal) x0 x1 x2 (ix4 b h q k)
      = Ideal.exp (score x0 x1 x2 b h q k - rowMax (score x0 x1 x2 b h q)) := by
  rw [val_main_v42_apply, val_main_v41_apply, v35_at, v40_at]
  rfl

/-- The sum of those exponentials over the keys. -/
theorem v43_at (b : Fin 2) (h : Fin 16) (q : Fin 2048) :
    val_main_v43 (F := Ideal) x0 x1 x2 (ix3 b h q)
      = ∑ k : Fin 2048, Ideal.exp (score x0 x1 x2 b h q k - rowMax (score x0 x1 x2 b h q)) := by
  rw [val_main_v43_apply, val_main_cst_8_apply, Ideal.ofBits_def, Ideal.ofBits_zero_f32, zero_add]
  refine Finset.sum_congr rfl fun k _ => ?_
  have e : idx_main_v43 (ix3 b h q) k = ix4 b h q k :=
    funext fun a => Fin.ext (by match a with | ⟨0, _⟩ => rfl | ⟨1, _⟩ => rfl | ⟨2, _⟩ => rfl | ⟨3, _⟩ => rfl)
  rw [e, v42_at]

/-- The softmax of a query's scores over the keys. -/
theorem v46_at (b : Fin 2) (h : Fin 16) (q k : Fin 2048) :
    val_main_v46 (F := Ideal) x0 x1 x2 (ix4 b h q k) = softmax (score x0 x1 x2 b h q) k := by
  rw [val_main_v46_apply, v42_at, val_main_v45_apply, val_main_v44_apply]
  have e : idx_main_v44 (idx_main_v45 (ix4 b h q k)) = ix3 b h q :=
    funext fun a => Fin.ext (by match a with | ⟨0, _⟩ => rfl | ⟨1, _⟩ => rfl | ⟨2, _⟩ => rfl)
  rw [e, v43_at]
  rfl

/-- The attention-weighted values. -/
theorem v47_at (b : Fin 2) (h : Fin 16) (q : Fin 2048) (d : Fin 128) :
    val_main_v47 (F := Ideal) x0 x1 x2 x3 (ix4 b h q d) = mix x0 x1 x2 x3 b h q d := by
  rw [val_main_v47_apply]
  unfold mix
  refine Finset.sum_congr rfl fun k _ => ?_
  have el : lidx_main_v47 (ix4 b h q d) k = ix4 b h q k :=
    funext fun a => Fin.ext (by match a with | ⟨0, _⟩ => rfl | ⟨1, _⟩ => rfl | ⟨2, _⟩ => rfl | ⟨3, _⟩ => rfl)
  have er : ridx_main_v47 (ix4 b h q d) k = ix4 b h k d :=
    funext fun a => Fin.ext (by match a with | ⟨0, _⟩ => rfl | ⟨1, _⟩ => rfl | ⟨2, _⟩ => rfl | ⟨3, _⟩ => rfl)
  rw [el, er, v46_at, v32_at]

/-- The sum of squares of a value's lanes. -/
theorem sumsq_at (b : Fin 2) (h : Fin 16) (n : Fin 2048) :
    val_main_call0_v1 (F := Ideal) x0 x3 (ix3 b h n)
      = ∑ d : Fin 128, vh x0 x3 b (kvOf h) n d * vh x0 x3 b (kvOf h) n d := by
  rw [val_main_call0_v1_apply, val_main_call0_cst_apply, Ideal.ofBits_def, Ideal.ofBits_zero_f32, zero_add]
  refine Finset.sum_congr rfl fun d _ => ?_
  have e : idx_main_call0_v1 (ix3 b h n) d = ix4 b h n d :=
    funext fun a => Fin.ext (by match a with | ⟨0, _⟩ => rfl | ⟨1, _⟩ => rfl | ⟨2, _⟩ => rfl | ⟨3, _⟩ => rfl)
  rw [e, val_main_call0_v0_apply, v32_at]
  rfl

/-- The floored norm of a value, spread over its lanes. -/
theorem v51_at (b : Fin 2) (h : Fin 16) (n : Fin 2048) (d : Fin 128) :
    val_main_v51 (F := Ideal) x0 x3 (ix4 b h n d) = l2den (fun d' => vh x0 x3 b (kvOf h) n d') := by
  rw [val_main_v51_apply, val_main_v50_apply, val_main_v48_apply, val_main_call0_v2_apply, val_main_v49_apply,
    val_main_cst_9_apply]
  have e : idx_main_call0_v2 (idx_main_v51 (ix4 b h n d)) = ix3 b h n :=
    funext fun a => Fin.ext (by match a with | ⟨0, _⟩ => rfl | ⟨1, _⟩ => rfl | ⟨2, _⟩ => rfl)
  rw [e, sumsq_at]
  rfl

/-- The normalised values. -/
theorem v52_at (b : Fin 2) (h : Fin 16) (n : Fin 2048) (d : Fin 128) :
    val_main_v52 (F := Ideal) x0 x3 (ix4 b h n d) = vn x0 x3 b (kvOf h) n d := by
  rw [val_main_v52_apply, v32_at, v51_at]
  rfl

/-- The component of the mixed values along the query position's normalised value. -/
theorem v54_at (b : Fin 2) (h : Fin 16) (q : Fin 2048) :
    val_main_v54 (F := Ideal) x0 x1 x2 x3 (ix3 b h q)
      = ∑ d' : Fin 128, mix x0 x1 x2 x3 b h q d' * vn x0 x3 b (kvOf h) q d' := by
  rw [val_main_v54_apply, val_main_cst_10_apply, Ideal.ofBits_def, Ideal.ofBits_zero_f32, zero_add]
  refine Finset.sum_congr rfl fun d _ => ?_
  have e : idx_main_v54 (ix3 b h q) d = ix4 b h q d :=
    funext fun a => Fin.ext (by match a with | ⟨0, _⟩ => rfl | ⟨1, _⟩ => rfl | ⟨2, _⟩ => rfl | ⟨3, _⟩ => rfl)
  rw [e, val_main_v53_apply, v47_at, v52_at]
  rfl

/-- The corrected attention output, per head. -/
theorem v58_at (b : Fin 2) (h : Fin 16) (q : Fin 2048) (d : Fin 128) :
    val_main_v58 (F := Ideal) x0 x1 x2 x3 (ix4 b h q d) = yh x0 x1 x2 x3 b h q d := by
  rw [val_main_v58_apply, val_main_v57_apply, val_main_v56_apply, val_main_v55_apply]
  have e : idx_main_v55 (idx_main_v56 (ix4 b h q d)) = ix3 b h q :=
    funext fun a => Fin.ext (by match a with | ⟨0, _⟩ => rfl | ⟨1, _⟩ => rfl | ⟨2, _⟩ => rfl)
  rw [e, v54_at, v47_at, v52_at]
  rfl

/-- The heads laid side by side: column `c` of position `n` is lane `c mod 128` of head `c / 128`. -/
theorem v60_at (b : Fin 2) (n c : Fin 2048) :
    val_main_v60 (F := Ideal) x0 x1 x2 x3 (ix3 b n c) = yh x0 x1 x2 x3 b (headOf c) n (laneOf c) := by
  rw [val_main_v60_apply, val_main_v59_apply]
  have hb := b.isLt
  have hn := n.isLt
  have hc := c.isLt
  have e : idx_main_v59 (idx_main_v60 (ix3 b n c)) = ix4 b (headOf c) n (laneOf c) :=
    funext fun a => Fin.ext (by
      match a with
      | ⟨0, _⟩ => show ((b.val * 2048 + n.val) * 2048 + c.val) / 4194304 = b.val; omega
      | ⟨1, _⟩ => show ((b.val * 2048 + n.val) * 2048 + c.val) / 128 % 16 = c.val / 128; omega
      | ⟨2, _⟩ => show ((b.val * 2048 + n.val) * 2048 + c.val) / 2048 % 2048 = n.val; omega
      | ⟨3, _⟩ => show ((b.val * 2048 + n.val) * 2048 + c.val) % 128 = c.val % 128; omega)
  rw [e, v58_at]

/-- The reference's result stage is `G`. -/
theorem ref_eq_G : val_main_v61 (F := Ideal) x0 x1 x2 x3 x4 = G x0 x1 x2 x3 x4 := by
  funext i
  rw [val_main_v61_apply]
  unfold G outAt
  refine Finset.sum_congr rfl fun c _ => ?_
  have el : lidx_main_v61 i c
      = ix3 (⟨(i 0).val, (i 0).isLt⟩ : Fin 2) (⟨(i 1).val, (i 1).isLt⟩ : Fin 2048) c :=
    funext fun a => Fin.ext (by match a with | ⟨0, _⟩ => rfl | ⟨1, _⟩ => rfl | ⟨2, _⟩ => rfl)
  have er : ridx_main_v61 i c = ix2 (⟨(i 2).val, (i 2).isLt⟩ : Fin 2048) c :=
    funext fun a => Fin.ext (by match a with | ⟨0, _⟩ => rfl | ⟨1, _⟩ => rfl)
  rw [el, er, v60_at]

end Cert.Attn.RefValue

end
-- ==== Proof.lean ====
/- The certificate of the attention kernel against its jnp reference, on the extended reals.

   Both programs compute grouped-query attention with a self-value correction (Proof/Spec.lean states the mathematics):
   sixteen query heads over four key/value heads, RMS-normalised queries and keys, a softmax over the 2048 keys of the
   batch, the weighted values less their component along the query position's L2-normalised value, and an output linear
   layer. The kernel does it in three launches over matrices of 4096 = 2 * 2048 rows and folds the score scale into
   the queries; the reference works on [batch, head, position, lane] arrays and scales the scores.

   The frames of the two kernel programs are their launches' runs; the reference's frame is its run with the result
   dropped. No operation of the kernel was rewritten for the idealization. The equivalence: the idealized kernel ends
   with its result at `kernelOut` of the arguments (Proof/KernelValue.lean, over the three launches' values), the
   reference with its at `G` of them (Proof/RefValue.lean), and the two are one function (Proof/Bridge.lean: a
   non-negative real factor moves through a sum of extended reals). -/
import proofs.«414553_j38508676776103_3_alg».proof.Defs
import proofs.«414553_j38508676776103_3_alg».proof.Proof.Gen.Kernel
import proofs.«414553_j38508676776103_3_alg».proof.Proof.Gen.Kernel.Frame
import proofs.«414553_j38508676776103_3_alg».proof.Proof.Gen.KernelIdeal
import proofs.«414553_j38508676776103_3_alg».proof.Proof.Gen.KernelIdeal.Frame
import proofs.«414553_j38508676776103_3_alg».proof.Proof.Gen.ReferenceIdeal
import proofs.«414553_j38508676776103_3_alg».proof.Proof.Gen.ReferenceIdeal.Run
import proofs.«414553_j38508676776103_3_alg».proof.Proof.Gen.ReferenceIdeal.Read
import proofs.«414553_j38508676776103_3_alg».proof.Proof.Gen.Pre_finite_inputs
import proofs.«414553_j38508676776103_3_alg».proof.Proof.KernelValue
import proofs.«414553_j38508676776103_3_alg».proof.Proof.Bridge
import proofs.«414553_j38508676776103_3_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is host operations only: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the same result: the kernel's three
    launches compose to `kernelOut`, the reference's stages to `G`, and these are equal. -/
theorem algebraic : Cert.algebraic_KernelIdeal_ReferenceIdeal := by
  intro m ρ m' ρ' _ hagree
  refine ⟨_, Cert.Attn.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.Attn.RefValue.ref_eq_G, (hagree c).1, (hagree c).2.1,
    (hagree c).2.2.1, (hagree c).2.2.2.1, (hagree c).2.2.2.2]
  exact (Cert.Attn.kernelOut_eq_G _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
